-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v12_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S100x1024 : Shape := ⟨2, ![100, 1024]⟩
abbrev S50257x1024 : Shape := ⟨2, ![50257, 1024]⟩
abbrev S100x2048 : Shape := ⟨2, ![100, 2048]⟩
abbrev S100 : Shape := ⟨1, ![100]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S100x1024 : S_.BroadcastsInDim S100x1024 (![] : Fin 0 → Fin S100x1024.rank)
  reducesTo_S100x1024_S_d0_1 : S100x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S100x2048 : S_.BroadcastsInDim S100x2048 (![] : Fin 0 → Fin S100x2048.rank)
  reducesTo_S100x2048_S_d0_1 : S100x2048.ReducesTo [0, 1] S_
  bcast_S_S100 : S_.BroadcastsInDim S100 (![] : Fin 0 → Fin S100.rank)
  reducesTo_S100_S_d0 : S100.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S100 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S100x2048 1) : IVec S_ 1 :=
  let main_c_5 : IVec S_ 1 := constantI S_ 1 1#1
  let main_v17 : IVec S_ 1 := (fun x v => Host.reduce IntOp.andi x v reducesTo_S100x2048_S_d0_1 h_S_) main_v16 main_c_5
  let main_v18 : IVec S_ 1 := andi main_v13 main_v17
  let main_v19 : FVec F S100 .f32 := Host.absf main_arg5
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S100x1024 .f32) (main_arg3 : FVec F S50257x1024 .f32) (main_arg4 : FVec F S100x2048 .f32) (main_arg5 : FVec F S100 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S100x1024 .f32 := Host.absf main_arg2
  let main_cst_0 : FVec F S_ .f32 := constant S_ .f32 0x7F800000#32
  let main_v5 : FVec F S100x1024 .f32 := broadcastInDim S100x1024 ![] bcast_S_S100x1024 main_cst_0
  let main_v6 : IVec S100x1024 1 := cmpf .olt main_v4 main_v5
  let main_c_1 : IVec S_ 1 := constantI S_ 1 1#1
  let main_v7 : IVec S_ 1 := (fun x v => Host.reduce IntOp.andi x v reducesTo_S100x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S100x2048 .f32 := Host.absf main_arg4
  let main_cst_4 : FVec F S_ .f32 := constant S_ .f32 0x7F800000#32
  let main_v15 : FVec F S100x2048 .f32 := broadcastInDim S100x2048 ![] bcast_S_S100x2048 main_cst_4
  let main_v16 : IVec S100x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S100x1024 : Shape := ⟨2, ![100, 1024]⟩
abbrev S50257x1024 : Shape := ⟨2, ![50257, 1024]⟩
abbrev S100x2048 : Shape := ⟨2, ![100, 2048]⟩
abbrev S100 : Shape := ⟨1, ![100]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x100 : Shape := ⟨2, ![1, 100]⟩
abbrev S1x3072 : Shape := ⟨2, ![1, 3072]⟩
abbrev S1024x1024 : Shape := ⟨2, ![1024, 1024]⟩
abbrev S51200x1024 : Shape := ⟨2, ![51200, 1024]⟩
abbrev S1x50257 : Shape := ⟨2, ![1, 50257]⟩
abbrev S1x51200 : Shape := ⟨2, ![1, 51200]⟩
abbrev S2048x1024 : Shape := ⟨2, ![2048, 1024]⟩
abbrev S1x2048 : Shape := ⟨2, ![1, 2048]⟩

abbrev nBuf : Space → Nat
  | .hbm => 56
  | .vmem => 23
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S100x1024, .f32⟩
  | .hbm, ⟨3, _⟩ => ⟨S50257x1024, .f32⟩
  | .hbm, ⟨4, _⟩ => ⟨S100x2048, .f32⟩
  | .hbm, ⟨5, _⟩ => ⟨S100, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x100, .f32⟩
  | .hbm, ⟨25, _⟩ => ⟨S1x1024, .f32⟩
  | .hbm, ⟨26, _⟩ => ⟨S1x3072, .f32⟩
  | .hbm, ⟨27, _⟩ => ⟨S1x3072, .f32⟩
  | .hbm, ⟨28, _⟩ => ⟨S1x1024, .f32⟩
  | .hbm, ⟨29, _⟩ => ⟨S1x100, .f32⟩
  | .hbm, ⟨30, _⟩ => ⟨S1x1024, .f32⟩
  | .hbm, ⟨31, _⟩ => ⟨S_, .i32⟩
  | .hbm, ⟨32, _⟩ => ⟨S_, .f32⟩
  | .hbm, ⟨33, _⟩ => ⟨S51200x1024, .f32⟩
  | .hbm, ⟨34, _⟩ => ⟨S1x50257, .f32⟩
  | .hbm, ⟨35, _⟩ => ⟨S_, .i32⟩
  | .hbm, ⟨36, _⟩ => ⟨S_, .f32⟩
  | .hbm, ⟨37, _⟩ => ⟨S1x51200, .f32⟩
  | .hbm, ⟨38, _⟩ => ⟨S1x51200, .f32⟩
  | .hbm, ⟨39, _⟩ => ⟨S1x50257, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S1x1, .f32⟩
  | .hbm, ⟨46, _⟩ => ⟨S1x50257, .f32⟩
  | .hbm, ⟨47, _⟩ => ⟨S1x50257, .f32⟩
  | .hbm, ⟨48, _⟩ => ⟨S1x50257, .f32⟩
  | .hbm, ⟨49, _⟩ => ⟨S_, .f32⟩
  | .hbm, ⟨50, _⟩ => ⟨S1, .f32⟩
  | .hbm, ⟨51, _⟩ => ⟨S1x1, .f32⟩
  | .hbm, ⟨52, _⟩ => ⟨S1x1, .f32⟩
  | .hbm, ⟨53, _⟩ => ⟨S1x50257, .f32⟩
  | .hbm, ⟨54, _⟩ => ⟨S1x50257, .f32⟩
  | .hbm, ⟨55, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S100x1024, .f32⟩
  | .local _ .vmem, ⟨3, _⟩ => ⟨S100x2048, .f32⟩
  | .local _ .vmem, ⟨4, _⟩ => ⟨S1x100, .f32⟩
  | .local _ .vmem, ⟨5, _⟩ => ⟨S1024x2048, .f32⟩
  | .local _ .vmem, ⟨6, _⟩ => ⟨S1x1024, .f32⟩
  | .local _ .vmem, ⟨7, _⟩ => ⟨S1x1024, .f32⟩
  | .local _ .vmem, ⟨8, _⟩ => ⟨S1x100, .f32⟩
  | .local _ .vmem, ⟨9, _⟩ => ⟨S1x1024, .f32⟩
  | .local _ .vmem, ⟨10, _⟩ => ⟨S1x1024, .f32⟩
  | .local _ .vmem, ⟨11, _⟩ => ⟨S3072x1024, .f32⟩
  | .local _ .vmem, ⟨12, _⟩ => ⟨S3072x1024, .f32⟩
  | .local _ .vmem, ⟨13, _⟩ => ⟨S1x3072, .f32⟩
  | .local _ .vmem, ⟨14, _⟩ => ⟨S1x3072, .f32⟩
  | .local _ .vmem, ⟨15, _⟩ => ⟨S1x1024, .f32⟩
  | .local _ .vmem, ⟨16, _⟩ => ⟨S1x1024, .f32⟩
  | .local _ .vmem, ⟨17, _⟩ => ⟨S2048x1024, .f32⟩
  | .local _ .vmem, ⟨18, _⟩ => ⟨S2048x1024, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v13 : Ref sig .tc := ⟨.hbm, 30, rfl⟩
abbrev main_c_1 : Ref sig .tc := ⟨.hbm, 31, rfl⟩
abbrev main_call0_v0 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_call1_v0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_call2_cst_0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_cst_1 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_v19 : Ref sig .tc := ⟨.hbm, 54, rfl⟩
abbrev main_v20 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x100 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3072x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3072x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x3072 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x3072 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  shapeCasts_S100_S1x100 : S100.ShapeCasts S1x100
  shapeCasts_S1024_S1x1024 : S1024.ShapeCasts S1x1024
  shapeCasts_S3072_S1x3072 : S3072.ShapeCasts S1x3072
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S100x2048_S100x1024_0_0 : ∀ a, (![0, 0] : Fin 2 → Nat) a + S100x1024.size a ≤ S100x2048.size a
  h_S100x1024 : 0 < S100x1024.numel
  inb_S100x2048_S100x1024_0_1024 : ∀ a, (![0, 1024] : Fin 2 → Nat) a + S100x1024.size a ≤ S100x2048.size a
  inb_S1x100_S1x100_0_0 : ∀ a, (![0, 0] : Fin 2 → Nat) a + S1x100.size a ≤ S1x100.size a
  h_S1x100 : 0 < S1x100.numel
  shapeCasts_S1x100_S1x100 : S1x100.ShapeCasts S1x100
  reduces_S1x100_S1 : S1x100.Reduces [1] S1
  shapeCasts_S1_S1x1 : S1.ShapeCasts S1x1
  broadcasts_S1x1_S1x100 : S1x1.Broadcasts S1x100
  inb_S100x1024_S100x1024_0_0 : ∀ a, (![0, 0] : Fin 2 → Nat) a + S100x1024.size a ≤ S100x1024.size a
  inb_S1024x2048_S1024x1024_0_0 : ∀ a, (![0, 0] : Fin 2 → Nat) a + S1024x1024.size a ≤ S1024x2048.size a
  h_S1024x1024 : 0 < S1024x1024.numel
  inb_S1024x2048_S1024x1024_0_1024 : ∀ a, (![0, 1024] : Fin 2 → Nat) a + S1024x1024.size a ≤ S1024x2048.size a
  inb_S3072x1024_S3072x1024_0_0 : ∀ a, (![0, 0] : Fin 2 → Nat) a + S3072x1024.size a ≤ S3072x1024.size a
  h_S3072x1024 : 0 < S3072x1024.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  pads_S50257x1024_S51200x1024_09430_000 : S50257x1024.Pads (![0, 0] : Fin 2 → Nat) ![943, 0] ![0, 0] S51200x1024
  h_S_ : 0 < S_.numel
  shapeCasts_S50257_S1x50257 : S50257.ShapeCasts S1x50257
  pads_S1x50257_S1x51200_000_09430 : S1x50257.Pads (![0, 0] : Fin 2 → Nat) ![0, 943] ![0, 0] S1x51200
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  slices_S1x51200_S1x50257_0_0 : S1x51200.Slices ![0, 0] S1x50257
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x1024_S100x1024_S1x100_1_1_0_0_n_n_wf : DotDims.WF S1x1024 S100x1024 S1x100 [1] [1] [0] [0] [] []
  dot_S1x100_S100x1024_S1x1024_1_0_0_1_n_n_wf : DotDims.WF S1x100 S100x1024 S1x1024 [1] [0] [0] [1] [] []
  dot_S1x1024_S1024x1024_S1x1024_1_1_0_0_n_n_wf : DotDims.WF S1x1024 S1024x1024 S1x1024 [1] [1] [0] [0] [] []
  dot_S1x1024_S3072x1024_S1x3072_1_1_0_0_n_n_wf : DotDims.WF S1x1024 S3072x1024 S1x3072 [1] [1] [0] [0] [] []
  dot_S1x1024_S2048x1024_S1x2048_1_1_0_0_n_n_wf : DotDims.WF S1x1024 S2048x1024 S1x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x1024.size a ≤ S100x1024.size a
  hwx0_2 : ∀ i : grid0.Coords, EltTy.bits .f32 = 32 ∨ (Rect.block (s := S100x1024) S100x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x2048.size a ≤ S100x2048.size a
  hwx0_3 : ∀ i : grid0.Coords, EltTy.bits .f32 = 32 ∨ (Rect.block (s := S100x2048) S100x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x100.size a ≤ S1x100.size a
  hwx0_8 : ∀ i : grid0.Coords, EltTy.bits .f32 = 32 ∨ (Rect.block (s := S1x100) S1x100.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3072x1024.size a ≤ S3072x1024.size a
  hwx1_2 : ∀ i : grid1.Coords, EltTy.bits .f32 = 32 ∨ (Rect.block (s := S3072x1024) S3072x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3072x1024.size a ≤ S3072x1024.size a
  hwx1_3 : ∀ i : grid1.Coords, EltTy.bits .f32 = 32 ∨ (Rect.block (s := S3072x1024) S3072x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x3072.size a ≤ S1x3072.size a
  hwx1_4 : ∀ i : grid1.Coords, EltTy.bits .f32 = 32 ∨ (Rect.block (s := S1x3072) S1x3072.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x3072.size a ≤ S1x3072.size a
  hwx1_5 : ∀ i : grid1.Coords, EltTy.bits .f32 = 32 ∨ (Rect.block (s := S1x3072) S1x3072.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S51200x1024.size a
  hwx2_1 : ∀ i : grid2.Coords, EltTy.bits .f32 = 32 ∨ (Rect.block (s := S51200x1024) S2048x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x51200.size a
  hwx2_2 : ∀ i : grid2.Coords, EltTy.bits .f32 = 32 ∨ (Rect.block (s := S1x51200) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x51200.size a
  hwx2_3 : ∀ i : grid2.Coords, EltTy.bits .f32 = 32 ∨ (Rect.block (s := S1x51200) S1x2048.size (cc2_transform_3 i) (hinb2_3 i)).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x1024_S100x1024_S1x100_1_1_0_0_n_n : DotDims S1x1024 S100x1024 S1x100 where
  lhsContracting := [1]
  rhsContracting := [1]
  lhsNonContracting := [0]
  rhsNonContracting := [0]
  lhsBatch := []
  rhsBatch := []
  wf := dot_S1x1024_S100x1024_S1x100_1_1_0_0_n_n_wf
def dot_S1x100_S100x1024_S1x1024_1_0_0_1_n_n : DotDims S1x100 S100x1024 S1x1024 where
  lhsContracting := [1]
  rhsContracting := [0]
  lhsNonContracting := [0]
  rhsNonContracting := [1]
  lhsBatch := []
  rhsBatch := []
  wf := dot_S1x100_S100x1024_S1x1024_1_0_0_1_n_n_wf
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S3072x1024_S1x3072_1_1_0_0_n_n : DotDims S1x1024 S3072x1024 S1x3072 where
  lhsContracting := [1]
  rhsContracting := [1]
  lhsNonContracting := [0]
  rhsNonContracting := [0]
  lhsBatch := []
  rhsBatch := []
  wf := dot_S1x1024_S3072x1024_S1x3072_1_1_0_0_n_n_wf
def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf

abbrev win0_0 : Pipeline.Window sig grid0 :=
  Pipeline.Window.ofSpec (Memref.whole main_v6) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S100x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S100x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12_0) S1x1024.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12_1) S1x100.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v12_0) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S3072x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S3072x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x3072.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x3072.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x1024.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v13) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S100x1024 : Shape := ⟨2, ![100, 1024]⟩
abbrev S50257x1024 : Shape := ⟨2, ![50257, 1024]⟩
abbrev S100x2048 : Shape := ⟨2, ![100, 2048]⟩
abbrev S100 : Shape := ⟨1, ![100]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x100 : Shape := ⟨2, ![2048, 100]⟩
abbrev S1x100 : Shape := ⟨2, ![1, 100]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 113
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S100x1024, .f32⟩
  | .hbm, ⟨3, _⟩ => ⟨S50257x1024, .f32⟩
  | .hbm, ⟨4, _⟩ => ⟨S100x2048, .f32⟩
  | .hbm, ⟨5, _⟩ => ⟨S100, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x100, .f32⟩
  | .hbm, ⟨26, _⟩ => ⟨S1x100, .f32⟩
  | .hbm, ⟨27, _⟩ => ⟨S1x100, .f32⟩
  | .hbm, ⟨28, _⟩ => ⟨S1x100, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x100, .f32⟩
  | .hbm, ⟨36, _⟩ => ⟨S1x100, .f32⟩
  | .hbm, ⟨37, _⟩ => ⟨S1x100, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x100, .f32⟩
  | .hbm, ⟨42, _⟩ => ⟨S1x100, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1024x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S_, .f32⟩
  | .hbm, ⟨98, _⟩ => ⟨S1, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S1x1, .f32⟩
  | .hbm, ⟨103, _⟩ => ⟨S1x50257, .f32⟩
  | .hbm, ⟨104, _⟩ => ⟨S1x50257, .f32⟩
  | .hbm, ⟨105, _⟩ => ⟨S1x50257, .f32⟩
  | .hbm, ⟨106, _⟩ => ⟨S_, .f32⟩
  | .hbm, ⟨107, _⟩ => ⟨S1, .f32⟩
  | .hbm, ⟨108, _⟩ => ⟨S1x1, .f32⟩
  | .hbm, ⟨109, _⟩ => ⟨S1x1, .f32⟩
  | .hbm, ⟨110, _⟩ => ⟨S1x50257, .f32⟩
  | .hbm, ⟨111, _⟩ => ⟨S1x50257, .f32⟩
  | .hbm, ⟨112, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_call1_cst_0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_cst_1 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S100x2048_S2048x100_1_0 : S100x2048.Transposes [1, 0] S2048x100
  bcast_S100_S1x100_1 : S100.BroadcastsInDim S1x100 (![1] : Fin 1 → Fin S1x100.rank)
  reducesTo_S1x100_S1_d1 : S1x100.ReducesTo [1] S1
  h_S_ : 0 < S_.numel
  bcast_S1x1_S1x100_0_1 : S1x1.BroadcastsInDim S1x100 (![0, 1] : Fin 2 → Fin S1x100.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x100_S1x100_1_0_0_1_n_n_wf : DotDims.WF S1x2048 S2048x100 S1x100 [1] [0] [0] [1] [] []
  dot_S1x100_S100x1024_S1x1024_1_0_0_1_n_n_wf : DotDims.WF S1x100 S100x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x100_S1x100_1_0_0_1_n_n : DotDims S1x2048 S2048x100 S1x100 where
  lhsContracting := [1]
  rhsContracting := [0]
  lhsNonContracting := [0]
  rhsNonContracting := [1]
  lhsBatch := []
  rhsBatch := []
  wf := dot_S1x2048_S2048x100_S1x100_1_0_0_1_n_n_wf
def dot_S1x100_S100x1024_S1x1024_1_0_0_1_n_n : DotDims S1x100 S100x1024 S1x1024 where
  lhsContracting := [1]
  rhsContracting := [0]
  lhsNonContracting := [0]
  rhsNonContracting := [1]
  lhsBatch := []
  rhsBatch := []
  wf := dot_S1x100_S100x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.Stages.lean ====
/-
  The decoder step, stage by stage, as pure functions of the values each stage reads.  One embedding row is
  gathered; attention weights are the softmax of an affine map of (row ‖ hidden); the context is their product with
  the encoder outputs; the combined input is relu of an affine map of (row ‖ context); the new hidden state is one GRU
  step; the result is the log-softmax of an affine map of the new hidden state.  The functions are spelt with the
  host operations of the reference program, over the values they read rather than over the argument arrays.
-/
import proofs.«146384_j2130303779125_1_alg».proof.Proof.Gen.ReferenceIdeal

noncomputable section

namespace Cert.Bridge

open Idealize.ShloMosaic Idealize.ShloMosaic.TcCoe Cert.ReferenceIdeal Cert.ReferenceIdeal.Gen

variable {F : FTy → Type} [FloatOps F]

/-- The embedding row chosen by the token (a negative token counts from the end of the table). -/
def rEmb (x0 : Vec F S1 .i32) (x3 : Vec F S50257x1024 .f32) : Vec F S1x1024 .f32 :=
  Host.gather gather_S50257x1024_S1x1_S1x1024_1_0_n_n_0_1_11024 x3
    (broadcastInDim S1x1 ![0] bcast_S1_S1x1_0
      (select (cmpi .slt x0 (broadcastInDim S1 ![] bcast_S_S1 (constantI S_ 32 0#32)))
        (addi x0 (broadcastInDim S1 ![] bcast_S_S1 (constantI S_ 32 50257#32))) x0))

/-- The previous hidden state as a row. -/
def rHid (x1 : Vec F S1x1x1024 .f32) : Vec F S1x1024 .f32 := shapeCast _ x1 shapeCasts_S1x1x1024_S1x1024

/-- Attention logits: (row ‖ hidden) · Wᵀ + b. -/
def rLogit (e h : Vec F S1x1024 .f32) (x4 : Vec F S100x2048 .f32) (x5 : Vec F S100 .f32) : Vec F S1x100 .f32 :=
  addf (Host.dotGeneral dot_S1x2048_S2048x100_S1x100_1_0_0_1_n_n none
      (concatenate S1x2048 1 [⟨S1x1024, e⟩, ⟨S1x1024, h⟩] concatenates_S1x1024_S1x1024_S1x2048_d1)
      (transpose S2048x100 [1, 0] x4 transposes_S100x2048_S2048x100_1_0))
    (broadcastInDim S1x100 ![1] bcast_S100_S1x100_1 x5)

/-- exp (l − max l), the numerator of the softmax over 100 positions. -/
def rSmNum (l : Vec F S1x100 .f32) : Vec F S1x100 .f32 :=
  Host.exp (subf l (broadcastInDim S1x100 ![0, 1] bcast_S1x1_S1x100_0_1 (broadcastInDim S1x1 ![0] bcast_S1_S1x1_0
    (maximumf (broadcastInDim S1 ![] bcast_S_S1 (constant S_ .f32 0xFF800000#32))
      (Host.reduce FloatOps.maximumf l (constant S_ .f32 0xFF800000#32) reducesTo_S1x100_S1_d1 h_S_)))))

/-- The softmax over 100 positions. -/
def rSoftmax (l : Vec F S1x100 .f32) : Vec F S1x100 .f32 :=
  Host.divf (rSmNum l) (broadcastInDim S1x100 ![0, 1] bcast_S1x1_S1x100_0_1 (broadcastInDim S1x1 ![0] bcast_S1_S1x1_0
    (Host.reduceAdd (rSmNum l) (constant S_ .f32 0x00000000#32) reducesTo_S1x100_S1_d1 h_S_)))

/-- The attention weights. -/
def rAttn (e h : Vec F S1x1024 .f32) (x4 : Vec F S100x2048 .f32) (x5 : Vec F S100 .f32) : Vec F S1x100 .f32 :=
  rSoftmax (rLogit e h x4 x5)

/-- The context: weights · encoder outputs. -/
def rCtx (aw : Vec F S1x100 .f32) (x2 : Vec F S100x1024 .f32) : Vec F S1x1024 .f32 :=
  Host.dotGeneral dot_S1x100_S100x1024_S1x1024_1_0_0_1_n_n none aw x2

/-- The combined input: relu ((row ‖ context) · Wᵀ + b). -/
def rComb (e ctx : Vec F S1x1024 .f32) (x6 : Vec F S1024x2048 .f32) (x7 : Vec F S1024 .f32) : Vec F S1x1024 .f32 :=
  maximumf (addf (Host.dotGeneral dot_S1x2048_S2048x1024_S1x1024_1_0_0_1_n_n none
      (concatenate S1x2048 1 [⟨S1x1024, e⟩, ⟨S1x1024, ctx⟩] concatenates_S1x1024_S1x1024_S1x2048_d1)
      (transpose S2048x1024 [1, 0] x6 transposes_S1024x2048_S2048x1024_1_0))
    (broadcastInDim S1x1024 ![1] bcast_S1024_S1x1024_1 x7))
    (broadcastInDim S1x1024 ![] bcast_S_S1x1024 (constant S_ .f32 0x00000000#32))

/-- One gate pre-activation triple: v · Wᵀ + b, 3072 wide. -/
def rGate (v : Vec F S1x1024 .f32) (w : Vec F S3072x1024 .f32) (b : Vec F S3072 .f32) : Vec F S1x3072 .f32 :=
  addf (Host.dotGeneral dot_S1x1024_S1024x3072_S1x3072_1_0_0_1_n_n none v
      (transpose S1024x3072 [1, 0] w transposes_S3072x1024_S1024x3072_1_0))
    (broadcastInDim S1x3072 ![1] bcast_S3072_S1x3072_1 b)

/-- The constant row of ones. -/
def rOne : Vec F S1x1024 .f32 := broadcastInDim S1x1024 ![] bcast_S_S1x1024 (constant S_ .f32 0x3F800000#32)

/-- The logistic function, spelt 1 / (1 + exp (−a)). -/
def rSig (a : Vec F S1x1024 .f32) : Vec F S1x1024 .f32 :=
  Host.divf rOne (addf rOne (Host.exp (Host.negf a)))

/-- The GRU update from the two gate triples and the previous hidden state. -/
def rGruOf (gi gh : Vec F S1x3072 .f32) (h : Vec F S1x1024 .f32) : Vec F S1x1024 .f32 :=
  addf
    (mulf (subf rOne (rSig (addf (extractStridedSlice S1x1024 ![0, 1024] gi slices_S1x3072_S1x1024_0_1024)
                                 (extractStridedSlice S1x1024 ![0, 1024] gh slices_S1x3072_S1x1024_0_1024))))
      (Host.tanh (addf (extractStridedSlice S1x1024 ![0, 2048] gi slices_S1x3072_S1x1024_0_2048)
        (mulf (rSig (addf (extractStridedSlice S1x1024 ![0, 0] gi slices_S1x3072_S1x1024_0_0)
                          (extractStridedSlice S1x1024 ![0, 0] gh slices_S1x3072_S1x1024_0_0)))
              (extractStridedSlice S1x1024 ![0, 2048] gh slices_S1x3072_S1x1024_0_2048)))))
    (mulf (rSig (addf (extractStridedSlice S1x1024 ![0, 1024] gi slices_S1x3072_S1x1024_0_1024)
                      (extractStridedSlice S1x1024 ![0, 1024] gh slices_S1x3072_S1x1024_0_1024))) h)

/-- One GRU step. -/
def rGru (x h : Vec F S1x1024 .f32) (x8 x9 : Vec F S3072x1024 .f32) (x10 x11 : Vec F S3072 .f32) : Vec F S1x1024 .f32 :=
  rGruOf (rGate x x8 x10) (rGate h x9 x11) h

/-- The output logits: h' · Wᵀ + b over the vocabulary. -/
def rLogits (hn : Vec F S1x1024 .f32) (x12 : Vec F S50257x1024 .f32) (x13 : Vec F S50257 .f32) : Vec F S1x50257 .f32 :=
  addf (Host.dotGeneral dot_S1x1024_S1024x50257_S1x50257_1_0_0_1_n_n none hn
      (transpose S1024x50257 [1, 0] x12 transposes_S50257x1024_S1024x50257_1_0))
    (broadcastInDim S1x50257 ![1] bcast_S50257_S1x50257_1 x13)

/-- l − max l over the vocabulary. -/
def rLsmShift (l : Vec F S1x50257 .f32) : Vec F S1x50257 .f32 :=
  subf l (broadcastInDim S1x50257 ![0, 1] bcast_S1x1_S1x50257_0_1 (broadcastInDim S1x1 ![0] bcast_S1_S1x1_0
    (maximumf (broadcastInDim S1 ![] bcast_S_S1 (constant S_ .f32 0xFF800000#32))
      (Host.reduce FloatOps.maximumf l (constant S_ .f32 0xFF800000#32) reducesTo_S1x50257_S1_d1 h_S_))))

/-- The log-softmax over the vocabulary. -/
def rLsm (l : Vec F S1x50257 .f32) : Vec F S1x50257 .f32 :=
  subf (rLsmShift l) (broadcastInDim S1x50257 ![0, 1] bcast_S1x1_S1x50257_0_1 (Host.log (broadcastInDim S1x1 ![0] bcast_S1_S1x1_0
    (Host.reduceAdd (Host.exp (rLsmShift l)) (constant S_ .f32 0x00000000#32) reducesTo_S1x50257_S1_d1 h_S_))))

/-- The new hidden state with its leading unit axis. -/
def rHid3 (hn : Vec F S1x1024 .f32) : Vec F S1x1x1024 .f32 :=
  broadcastInDim S1x1x1024 ![1, 2] bcast_S1x1024_S1x1x1024_1_2 hn

end Cert.Bridge

end
-- ==== Proof.KWalk.lean ====
/-
  The buffer contents at the boundaries of the program's segments, read back to the argument arrays: what each launch
  finds in its input arrays, and what the three result buffers hold at the end in terms of what the launches left.
-/
import proofs.«146384_j2130303779125_1_alg».proof.Proof.Gen.KernelIdeal.Frame
import proofs.«146384_j2130303779125_1_alg».proof.Proof.Stages
import Idealize.ShloMosaic.Lib.StableHlo.Run

set_option maxRecDepth 16384

noncomputable section

namespace Cert.KernelIdeal.Walk

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-- The zero the two paddings fill with: the integer 0 converted. -/
def padZero : Vec F S_ .f32 := sitofp .f32 (constantI S_ 32 0#32)
/-- The output weights padded by 943 zero rows. -/
def padW (x12 : Vec F S50257x1024 .f32) : Vec F S51200x1024 .f32 :=
  pad S51200x1024 ![0, 0] ![943, 0] ![0, 0] x12 (padZero (F := F)) pads_S50257x1024_S51200x1024_09430_000 h_S_
/-- The output bias as a row, padded by 943 zero columns. -/
def padB (x13 : Vec F S50257 .f32) : Vec F S1x51200 .f32 :=
  pad S1x51200 ![0, 0] ![0, 943] ![0, 0] (shapeCast S1x50257 x13 shapeCasts_S50257_S1x50257) (padZero (F := F)) pads_S1x50257_S1x51200_000_09430 h_S_

/-- A stretch of host operations none of which writes the buffer leaves the buffer as it was. -/
local macro "unwritten" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## What the attention launch finds -/
theorem V1_v6 (c : Dev nD) : V1 m ρ c main_v6 = Cert.Bridge.rEmb (m ((c : Thread nD τ).loc main_arg0)) (m ((c : Thread nD τ).loc main_arg3)) := by
  show StableHlo.after hostOps0 _ (Proc.devRef .tc main_v6) = _
  after_results
  unfold Cert.Bridge.rEmb
  rfl
theorem V1_v7 (c : Dev nD) : V1 m ρ c main_v7 = Cert.Bridge.rHid (m ((c : Thread nD τ).loc main_arg1)) := by
  show StableHlo.after hostOps0 _ (Proc.devRef .tc main_v7) = _
  after_results
  unfold Cert.Bridge.rHid
  rfl
theorem V1_v8 (c : Dev nD) : V1 m ρ c main_v8 = shapeCast S1x100 (m ((c : Thread nD τ).loc main_arg5)) shapeCasts_S100_S1x100 := by
  show StableHlo.after hostOps0 _ (Proc.devRef .tc main_v8) = _
  after_results
  rfl
theorem V1_v9 (c : Dev nD) : V1 m ρ c main_v9 = shapeCast S1x1024 (m ((c : Thread nD τ).loc main_arg7)) shapeCasts_S1024_S1x1024 := by
  show StableHlo.after hostOps0 _ (Proc.devRef .tc main_v9) = _
  after_results
  rfl
theorem V1_v10 (c : Dev nD) : V1 m ρ c main_v10 = shapeCast S1x3072 (m ((c : Thread nD τ).loc main_arg10)) shapeCasts_S3072_S1x3072 := by
  show StableHlo.after hostOps0 _ (Proc.devRef .tc main_v10) = _
  after_results
  rfl
theorem V1_v11 (c : Dev nD) : V1 m ρ c main_v11 = shapeCast S1x3072 (m ((c : Thread nD τ).loc main_arg11)) shapeCasts_S3072_S1x3072 := by
  show StableHlo.after hostOps0 _ (Proc.devRef .tc main_v11) = _
  after_results
  rfl
theorem V1_arg2 (c : Dev nD) : V1 m ρ c main_arg2 = m ((c : Thread nD τ).loc main_arg2) := by
  show StableHlo.after hostOps0 (W0 m ρ c) (Proc.devRef .tc main_arg2) = _
  unwritten hostOps0
theorem V1_arg4 (c : Dev nD) : V1 m ρ c main_arg4 = m ((c : Thread nD τ).loc main_arg4) := by
  show StableHlo.after hostOps0 (W0 m ρ c) (Proc.devRef .tc main_arg4) = _
  unwritten hostOps0
theorem V1_arg6 (c : Dev nD) : V1 m ρ c main_arg6 = m ((c : Thread nD τ).loc main_arg6) := by
  show StableHlo.after hostOps0 (W0 m ρ c) (Proc.devRef .tc main_arg6) = _
  unwritten hostOps0

/-! ## What the GRU launch finds -/
theorem V2_v12_0 (c : Dev nD) : V2 m ρ c main_v12_0 = (dat0 (V1 m ρ) c).arrAt 7 cfg0.N := by
  exact W2_arr m ρ c 7
theorem V2_v7 (c : Dev nD) : V2 m ρ c main_v7 = V1 m ρ c main_v7 := by
  calc V2 m ρ c main_v7
    _ = (dat0 (V1 m ρ) c).arrAt 1 cfg0.N := W2_arr m ρ c 1
    _ = (dat0 (V1 m ρ) c).A 1 := Pipeline.Dat.arrAt_in _ 1 (by decide) cfg0.N
    _ = V1 m ρ c main_v7 := A_eq0 (V1 m ρ) c 1
theorem V2_arg8 (c : Dev nD) : V2 m ρ c main_arg8 = m ((c : Thread nD τ).loc main_arg8) := by
  refine (W2_of_ne m ρ c main_arg8 (by decide)).trans ?_
  show StableHlo.after hostOps0 (W0 m ρ c) (Proc.devRef .tc main_arg8) = _
  unwritten hostOps0
theorem V2_arg9 (c : Dev nD) : V2 m ρ c main_arg9 = m ((c : Thread nD τ).loc main_arg9) := by
  refine (W2_of_ne m ρ c main_arg9 (by decide)).trans ?_
  show StableHlo.after hostOps0 (W0 m ρ c) (Proc.devRef .tc main_arg9) = _
  unwritten hostOps0
theorem V2_v10 (c : Dev nD) : V2 m ρ c main_v10 = V1 m ρ c main_v10 := by
  exact W2_of_ne m ρ c main_v10 (by decide)
theorem V2_v11 (c : Dev nD) : V2 m ρ c main_v11 = V1 m ρ c main_v11 := by
  exact W2_of_ne m ρ c main_v11 (by decide)

/-- The output weights are written by no launch and by no host operation before the third launch. -/
private theorem W3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := by unwritten hostOps0
    _ = m ((c : Thread nD τ).loc main_arg12) := rfl
/-- Nor is the output bias. -/
private theorem W3_arg13 (c : Dev nD) : W3 m ρ c (Proc.devRef .tc main_arg13) = m ((c : Thread nD τ).loc main_arg13) :=
  calc W3 m ρ c (Proc.devRef .tc main_arg13)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := by unwritten hostOps0
    _ = m ((c : Thread nD τ).loc main_arg13) := rfl

/-! ## What the projection launch finds -/
theorem V7_v13 (c : Dev nD) : V7 m ρ c main_v13 = (dat1 (V2 m ρ) c).arrAt 6 cfg1.N := by
  calc W7 m ρ c (Proc.devRef .tc main_v13)
    _ = W6 m ρ c (Proc.devRef .tc main_v13) := by unwritten hostOps2_3
    _ = W5 m ρ c (Proc.devRef .tc main_v13) := by unwritten hostOps2_2
    _ = W4 m ρ c (Proc.devRef .tc main_v13) := by unwritten hostOps2_1
    _ = W3 m ρ c (Proc.devRef .tc main_v13) := by unwritten hostOps2
    _ = _ := W3_arr m ρ c 6
theorem V7_v14 (c : Dev nD) : V7 m ρ c main_v14 = padW (m ((c : Thread nD τ).loc main_arg12)) := by
  calc W7 m ρ c (Proc.devRef .tc main_v14)
    _ = W6 m ρ c (Proc.devRef .tc main_v14) := by unwritten hostOps2_3
    _ = W5 m ρ c (Proc.devRef .tc main_v14) := by unwritten hostOps2_2
    _ = padW (W3 m ρ c (Proc.devRef .tc main_arg12)) := by
      show StableHlo.after hostOps2_1 _ (Proc.devRef .tc main_v14) = _
      after_results
      rfl
    _ = _ := congrArg padW (W3_arg12 m ρ c)
theorem V7_v16 (c : Dev nD) : V7 m ρ c main_v16 = padB (m ((c : Thread nD τ).loc main_arg13)) := by
  calc W7 m ρ c (Proc.devRef .tc main_v16)
    _ = padB (W3 m ρ c (Proc.devRef .tc main_arg13)) := by
      show StableHlo.after hostOps2_3 _ (Proc.devRef .tc main_v16) = _
      after_results
      rfl
    _ = _ := congrArg padB (W3_arg13 m ρ c)

/-- The third launch only reads the new hidden state: its array is left as entered. -/
private theorem W8_v13 (c : Dev nD) : W8 m ρ c (Proc.devRef .tc main_v13) = V7 m ρ c main_v13 :=
  calc W8 m ρ c (Proc.devRef .tc main_v13)
    _ = (dat2 (V7 m ρ) c).arrAt 0 cfg2.N := W8_arr m ρ c 0
    _ = (dat2 (V7 m ρ) c).A 0 := Pipeline.Dat.arrAt_in _ 0 (by decide) cfg2.N
    _ = V7 m ρ c main_v13 := A_eq2 (V7 m ρ) c 0

/-- Transport along an equation between types and back along it is the identity. -/
private theorem cast_cast_self {α β : Type} (h : α = β) (h' : β = α) (v : α) : cast h' (cast h v) = v := by
  cases h; rfl

/-! ## The three results at the end -/
theorem W11_v12_1 (c : Dev nD) : W11 m ρ c (Proc.devRef .tc main_v12_1) = (dat0 (V1 m ρ) c).arrAt 8 cfg0.N := by
  calc W11 m ρ c (Proc.devRef .tc main_v12_1)
    _ = W10 m ρ c (Proc.devRef .tc main_v12_1) := by unwritten hostOps3_2
    _ = W9 m ρ c (Proc.devRef .tc main_v12_1) := by unwritten hostOps3_1
    _ = W8 m ρ c (Proc.devRef .tc main_v12_1) := by unwritten hostOps3
    _ = W7 m ρ c (Proc.devRef .tc main_v12_1) := W8_of_ne m ρ c main_v12_1 (by decide)
    _ = W6 m ρ c (Proc.devRef .tc main_v12_1) := by unwritten hostOps2_3
    _ = W5 m ρ c (Proc.devRef .tc main_v12_1) := by unwritten hostOps2_2
    _ = W4 m ρ c (Proc.devRef .tc main_v12_1) := by unwritten hostOps2_1
    _ = W3 m ρ c (Proc.devRef .tc main_v12_1) := by unwritten hostOps2
    _ = W2 m ρ c (Proc.devRef .tc main_v12_1) := W3_of_ne m ρ c main_v12_1 (by decide)
    _ = _ := W2_arr m ρ c 8
theorem W11_v20 (c : Dev nD) : W11 m ρ c (Proc.devRef .tc main_v20) = Cert.Bridge.rHid3 ((dat1 (V2 m ρ) c).arrAt 6 cfg1.N) := by
  calc W11 m ρ c (Proc.devRef .tc main_v20)
    _ = Cert.Bridge.rHid3 (W8 m ρ c (Proc.devRef .tc main_v13)) := by
      show StableHlo.after hostOps3_2 _ (Proc.devRef .tc main_v20) = _
      after_results
      rfl
    _ = Cert.Bridge.rHid3 (V7 m ρ c main_v13) := congrArg Cert.Bridge.rHid3 (W8_v13 m ρ c)
    _ = _ := congrArg Cert.Bridge.rHid3 (V7_v13 m ρ c)
theorem W11_v19 (c : Dev nD) : W11 m ρ c (Proc.devRef .tc main_v19)
    = Cert.Bridge.rLsm (extractStridedSlice S1x50257 ![0, 0] ((dat2 (V7 m ρ) c).arrAt 3 cfg2.N) slices_S1x51200_S1x50257_0_0) := by
  calc W11 m ρ c (Proc.devRef .tc main_v19)
    _ = W10 m ρ c (Proc.devRef .tc main_v19) := by unwritten hostOps3_2
    _ = Cert.Bridge.rLsm (extractStridedSlice S1x50257 ![0, 0] (W8 m ρ c (Proc.devRef .tc main_v17)) slices_S1x51200_S1x50257_0_0) := by
      show StableHlo.after hostOps3_1 _ (Proc.devRef .tc main_v19) = _
      after_results
      generalize extractStridedSlice S1x50257 ![0, 0] (W8 m ρ c (Proc.tc.devRef main_v17)) slices_S1x51200_S1x50257_0_0 = l
      simp only [StableHlo.TRef.ofBuf, StableHlo.TRef.toBuf, cast_cast_self]
      unfold Cert.Bridge.rLsm Cert.Bridge.rLsmShift
      rfl
    _ = _ := congrArg (fun x => Cert.Bridge.rLsm (extractStridedSlice S1x50257 ![0, 0] x slices_S1x51200_S1x50257_0_0)) (W8_arr m ρ c 3)

end Cert.KernelIdeal.Walk

end
-- ==== Proof.KBlocks.lean ====
/-
  The two single-point launches, read as values.  Each of their windows is its whole array and the grid has one point,
  so after the launch an output array holds exactly what the body stored, computed from the input arrays as the
  launch found them.
-/
import proofs.«146384_j2130303779125_1_alg».proof.Proof.Gen.KernelIdeal.Frame
import Idealize.ShloMosaic.Lib.Pipeline.Value

set_option maxRecDepth 16384

noncomputable section

namespace Cert.KernelIdeal.Blocks

open Idealize.ShloMosaic Idealize.ShloMosaic.TcCoe Idealize.SL.Sem Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

/-! ## The attention launch: one grid point, every window its whole array

Every index map of this launch is constant at block (0, 0) and every block has its array's extents, so on each axis
the block's embedding into the array is `0 * extent + 1 * y = y`: the identity. -/

/-- The block index of each window of the attention launch is (0, 0) at the grid's one point. -/
private theorem index0_0 : ∀ t : Fin cfg0.N, win0_0.index t (0 : Fin 2) = 0 ∧ win0_0.index t (1 : Fin 2) = 0 :=
  (by decide +kernel : ∀ t : Fin grid0.N, _)
private theorem index0_1 : ∀ t : Fin cfg0.N, win0_1.index t (0 : Fin 2) = 0 ∧ win0_1.index t (1 : Fin 2) = 0 :=
  (by decide +kernel : ∀ t : Fin grid0.N, _)
private theorem index0_2 : ∀ t : Fin cfg0.N, win0_2.index t (0 : Fin 2) = 0 ∧ win0_2.index t (1 : Fin 2) = 0 :=
  (by decide +kernel : ∀ t : Fin grid0.N, _)
private theorem index0_3 : ∀ t : Fin cfg0.N, win0_3.index t (0 : Fin 2) = 0 ∧ win0_3.index t (1 : Fin 2) = 0 :=
  (by decide +kernel : ∀ t : Fin grid0.N, _)
private theorem index0_4 : ∀ t : Fin cfg0.N, win0_4.index t (0 : Fin 2) = 0 ∧ win0_4.index t (1 : Fin 2) = 0 :=
  (by decide +kernel : ∀ t : Fin grid0.N, _)
private theorem index0_5 : ∀ t : Fin cfg0.N, win0_5.index t (0 : Fin 2) = 0 ∧ win0_5.index t (1 : Fin 2) = 0 :=
  (by decide +kernel : ∀ t : Fin grid0.N, _)
private theorem index0_6 : ∀ t : Fin cfg0.N, win0_6.index t (0 : Fin 2) = 0 ∧ win0_6.index t (1 : Fin 2) = 0 :=
  (by decide +kernel : ∀ t : Fin grid0.N, _)
private theorem index0_7 : ∀ t : Fin cfg0.N, win0_7.index t (0 : Fin 2) = 0 ∧ win0_7.index t (1 : Fin 2) = 0 :=
  (by decide +kernel : ∀ t : Fin grid0.N, _)
private theorem index0_8 : ∀ t : Fin cfg0.N, win0_8.index t (0 : Fin 2) = 0 ∧ win0_8.index t (1 : Fin 2) = 0 :=
  (by decide +kernel : ∀ t : Fin grid0.N, _)

/-- Input window 0's block is its whole array (the query row). -/
private theorem wholeBlock0_0 (c : Dev nD) (t : Fin cfg0.N) : iblk0 V c 0 t = V c main_v6 := by
  funext y
  show V c main_v6 (((cfg0.win 0).blk t).view.emb y) = V c main_v6 y
  have h : ((cfg0.win 0).blk t).view.emb y = y := by
    obtain ⟨e0, e1⟩ := index0_0 t
    funext a; apply Fin.ext
    match a with
    | ⟨0, _⟩ => show win0_0.index t (0 : Fin 2) * 1 + 1 * (y 0).val = (y 0).val; omega
    | ⟨1, _⟩ => show win0_0.index t (1 : Fin 2) * 1024 + 1 * (y 1).val = (y 1).val; omega
  rw [h]

/-- Input window 1's block is its whole array. -/
private theorem wholeBlock0_1 (c : Dev nD) (t : Fin cfg0.N) : iblk0 V c 1 t = V c main_v7 := by
  funext y
  show V c main_v7 (((cfg0.win 1).blk t).view.emb y) = V c main_v7 y
  have h : ((cfg0.win 1).blk t).view.emb y = y := by
    obtain ⟨e0, e1⟩ := index0_1 t
    funext a; apply Fin.ext
    match a with
    | ⟨0, _⟩ => show win0_1.index t (0 : Fin 2) * 1 + 1 * (y 0).val = (y 0).val; omega
    | ⟨1, _⟩ => show win0_1.index t (1 : Fin 2) * 1024 + 1 * (y 1).val = (y 1).val; omega
  rw [h]

/-- Input window 2's block is its whole array. -/
private theorem wholeBlock0_2 (c : Dev nD) (t : Fin cfg0.N) : iblk0 V c 2 t = V c main_arg2 := by
  funext y
  show V c main_arg2 (((cfg0.win 2).blk t).view.emb y) = V c main_arg2 y
  have h : ((cfg0.win 2).blk t).view.emb y = y := by
    obtain ⟨e0, e1⟩ := index0_2 t
    funext a; apply Fin.ext
    match a with
    | ⟨0, _⟩ => show win0_2.index t (0 : Fin 2) * 100 + 1 * (y 0).val = (y 0).val; omega
    | ⟨1, _⟩ => show win0_2.index t (1 : Fin 2) * 1024 + 1 * (y 1).val = (y 1).val; omega
  rw [h]

/-- Input window 3's block is its whole array. -/
private theorem wholeBlock0_3 (c : Dev nD) (t : Fin cfg0.N) : iblk0 V c 3 t = V c main_arg4 := by
  funext y
  show V c main_arg4 (((cfg0.win 3).blk t).view.emb y) = V c main_arg4 y
  have h : ((cfg0.win 3).blk t).view.emb y = y := by
    obtain ⟨e0, e1⟩ := index0_3 t
    funext a; apply Fin.ext
    match a with
    | ⟨0, _⟩ => show win0_3.index t (0 : Fin 2) * 100 + 1 * (y 0).val = (y 0).val; omega
    | ⟨1, _⟩ => show win0_3.index t (1 : Fin 2) * 2048 + 1 * (y 1).val = (y 1).val; omega
  rw [h]

/-- Input window 4's block is its whole array. -/
private theorem wholeBlock0_4 (c : Dev nD) (t : Fin cfg0.N) : iblk0 V c 4 t = V c main_v8 := by
  funext y
  show V c main_v8 (((cfg0.win 4).blk t).view.emb y) = V c main_v8 y
  have h : ((cfg0.win 4).blk t).view.emb y = y := by
    obtain ⟨e0, e1⟩ := index0_4 t
    funext a; apply Fin.ext
    match a with
    | ⟨0, _⟩ => show win0_4.index t (0 : Fin 2) * 1 + 1 * (y 0).val = (y 0).val; omega
    | ⟨1, _⟩ => show win0_4.index t (1 : Fin 2) * 100 + 1 * (y 1).val = (y 1).val; omega
  rw [h]

/-- Input window 5's block is its whole array. -/
private theorem wholeBlock0_5 (c : Dev nD) (t : Fin cfg0.N) : iblk0 V c 5 t = V c main_arg6 := by
  funext y
  show V c main_arg6 (((cfg0.win 5).blk t).view.emb y) = V c main_arg6 y
  have h : ((cfg0.win 5).blk t).view.emb y = y := by
    obtain ⟨e0, e1⟩ := index0_5 t
    funext a; apply Fin.ext
    match a with
    | ⟨0, _⟩ => show win0_5.index t (0 : Fin 2) * 1024 + 1 * (y 0).val = (y 0).val; omega
    | ⟨1, _⟩ => show win0_5.index t (1 : Fin 2) * 2048 + 1 * (y 1).val = (y 1).val; omega
  rw [h]

/-- Input window 6's block is its whole array. -/
private theorem wholeBlock0_6 (c : Dev nD) (t : Fin cfg0.N) : iblk0 V c 6 t = V c main_v9 := by
  funext y
  show V c main_v9 (((cfg0.win 6).blk t).view.emb y) = V c main_v9 y
  have h : ((cfg0.win 6).blk t).view.emb y = y := by
    obtain ⟨e0, e1⟩ := index0_6 t
    funext a; apply Fin.ext
    match a with
    | ⟨0, _⟩ => show win0_6.index t (0 : Fin 2) * 1 + 1 * (y 0).val = (y 0).val; omega
    | ⟨1, _⟩ => show win0_6.index t (1 : Fin 2) * 1024 + 1 * (y 1).val = (y 1).val; omega
  rw [h]

/-- Output window 7's block, read off any contents of its array, is those contents. -/
private theorem readBlock0_7 (t : Fin cfg0.N) (G : Vec F S1x1024 .f32) : ((cfg0.win 7).blk t).view.read (Elt F) G = G := by
  funext y
  show G (((cfg0.win 7).blk t).view.emb y) = G y
  have h : ((cfg0.win 7).blk t).view.emb y = y := by
    obtain ⟨e0, e1⟩ := index0_7 t
    funext a; apply Fin.ext
    match a with
    | ⟨0, _⟩ => show win0_7.index t (0 : Fin 2) * 1 + 1 * (y 0).val = (y 0).val; omega
    | ⟨1, _⟩ => show win0_7.index t (1 : Fin 2) * 1024 + 1 * (y 1).val = (y 1).val; omega
  rw [h]

/-- Output window 7's block holds every index of its array. -/
private theorem mem_blk0_7 (t : Fin cfg0.N) (i : S1x1024.Idx) : i ∈ ((cfg0.win 7).blk t).view.set := by
  show i ∈ ((View.whole main_v12_0).slice (win0_7.rect t)).set
  rw [View.set_slice_whole, Rect.mem_set_unit]
  obtain ⟨e0, e1⟩ := index0_7 t
  intro a
  match a with
  | ⟨0, _⟩ =>
    show win0_7.index t (0 : Fin 2) * 1 ≤ (i 0).val ∧ (i 0).val < win0_7.index t (0 : Fin 2) * 1 + 1
    have hi : (i 0).val < 1 := (i 0).isLt
    omega
  | ⟨1, _⟩ =>
    show win0_7.index t (1 : Fin 2) * 1024 ≤ (i 1).val ∧ (i 1).val < win0_7.index t (1 : Fin 2) * 1024 + 1024
    have hi : (i 1).val < 1024 := (i 1).isLt
    omega

/-- Output window 8's block, read off any contents of its array, is those contents. -/
private theorem readBlock0_8 (t : Fin cfg0.N) (G : Vec F S1x100 .f32) : ((cfg0.win 8).blk t).view.read (Elt F) G = G := by
  funext y
  show G (((cfg0.win 8).blk t).view.emb y) = G y
  have h : ((cfg0.win 8).blk t).view.emb y = y := by
    obtain ⟨e0, e1⟩ := index0_8 t
    funext a; apply Fin.ext
    match a with
    | ⟨0, _⟩ => show win0_8.index t (0 : Fin 2) * 1 + 1 * (y 0).val = (y 0).val; omega
    | ⟨1, _⟩ => show win0_8.index t (1 : Fin 2) * 100 + 1 * (y 1).val = (y 1).val; omega
  rw [h]

/-- Output window 8's block holds every index of its array. -/
private theorem mem_blk0_8 (t : Fin cfg0.N) (i : S1x100.Idx) : i ∈ ((cfg0.win 8).blk t).view.set := by
  show i ∈ ((View.whole main_v12_1).slice (win0_8.rect t)).set
  rw [View.set_slice_whole, Rect.mem_set_unit]
  obtain ⟨e0, e1⟩ := index0_8 t
  intro a
  match a with
  | ⟨0, _⟩ =>
    show win0_8.index t (0 : Fin 2) * 1 ≤ (i 0).val ∧ (i 0).val < win0_8.index t (0 : Fin 2) * 1 + 1
    have hi : (i 0).val < 1 := (i 0).isLt
    omega
  | ⟨1, _⟩ =>
    show win0_8.index t (1 : Fin 2) * 100 ≤ (i 1).val ∧ (i 1).val < win0_8.index t (1 : Fin 2) * 100 + 100
    have hi : (i 1).val < 100 := (i 1).isLt
    omega

/-- After the attention launch its first result array (the combined input) is the body's store of the input arrays. -/
theorem arr0_7 (c : Dev nD) :
    (dat0 (F := F) V c).arrAt 7 cfg0.N
      = out0_7 (V c main_v6) (V c main_v7) (V c main_arg2) (V c main_arg4) (V c main_v8) (V c main_arg6) (V c main_v9) := by
  refine (dat0 V c).arrAt_eq_of_cover 7 _ (fun t _ => ?_) (fun i => ⟨⟨0, by decide⟩, flush0_7 _, mem_blk0_7 _ i⟩)
  -- what the one point writes back is what the body left in the staging buffer, a function of the input blocks,
  -- each of which is its array
  show (cfg0.win 7).cut (grid0.coords t) ((dat0 V c).after 7 t) = _
  rw [after0_7, wholeBlock0_0, wholeBlock0_1, wholeBlock0_2, wholeBlock0_3, wholeBlock0_4, wholeBlock0_5, wholeBlock0_6,
    readBlock0_7]
  rfl

/-- After the attention launch its second result array (the attention weights) is the body's store of the input arrays. -/
theorem arr0_8 (c : Dev nD) :
    (dat0 (F := F) V c).arrAt 8 cfg0.N
      = out0_8 (V c main_v6) (V c main_v7) (V c main_arg2) (V c main_arg4) (V c main_v8) (V c main_arg6) (V c main_v9) := by
  refine (dat0 V c).arrAt_eq_of_cover 8 _ (fun t _ => ?_) (fun i => ⟨⟨0, by decide⟩, flush0_8 _, mem_blk0_8 _ i⟩)
  show (cfg0.win 8).cut (grid0.coords t) ((dat0 V c).after 8 t) = _
  rw [after0_8, wholeBlock0_0, wholeBlock0_1, wholeBlock0_2, wholeBlock0_3, wholeBlock0_4, wholeBlock0_5, wholeBlock0_6,
    readBlock0_8]
  rfl

/-! ## The GRU launch: one grid point, every window its whole array -/

/-- The block index of each window of the GRU launch is (0, 0) at the grid's one point. -/
private theorem index1_0 : ∀ t : Fin cfg1.N, win1_0.index t (0 : Fin 2) = 0 ∧ win1_0.index t (1 : Fin 2) = 0 :=
  (by decide +kernel : ∀ t : Fin grid1.N, _)
private theorem index1_1 : ∀ t : Fin cfg1.N, win1_1.index t (0 : Fin 2) = 0 ∧ win1_1.index t (1 : Fin 2) = 0 :=
  (by decide +kernel : ∀ t : Fin grid1.N, _)
private theorem index1_2 : ∀ t : Fin cfg1.N, win1_2.index t (0 : Fin 2) = 0 ∧ win1_2.index t (1 : Fin 2) = 0 :=
  (by decide +kernel : ∀ t : Fin grid1.N, _)
private theorem index1_3 : ∀ t : Fin cfg1.N, win1_3.index t (0 : Fin 2) = 0 ∧ win1_3.index t (1 : Fin 2) = 0 :=
  (by decide +kernel : ∀ t : Fin grid1.N, _)
private theorem index1_4 : ∀ t : Fin cfg1.N, win1_4.index t (0 : Fin 2) = 0 ∧ win1_4.index t (1 : Fin 2) = 0 :=
  (by decide +kernel : ∀ t : Fin grid1.N, _)
private theorem index1_5 : ∀ t : Fin cfg1.N, win1_5.index t (0 : Fin 2) = 0 ∧ win1_5.index t (1 : Fin 2) = 0 :=
  (by decide +kernel : ∀ t : Fin grid1.N, _)
private theorem index1_6 : ∀ t : Fin cfg1.N, win1_6.index t (0 : Fin 2) = 0 ∧ win1_6.index t (1 : Fin 2) = 0 :=
  (by decide +kernel : ∀ t : Fin grid1.N, _)

/-- Input window 0's block is its whole array (the combined input the attention launch left). -/
private theorem wholeBlock1_0 (c : Dev nD) (t : Fin cfg1.N) : iblk1 V c 0 t = V c main_v12_0 := by
  funext y
  show V c main_v12_0 (((cfg1.win 0).blk t).view.emb y) = V c main_v12_0 y
  have h : ((cfg1.win 0).blk t).view.emb y = y := by
    obtain ⟨e0, e1⟩ := index1_0 t
    funext a; apply Fin.ext
    match a with
    | ⟨0, _⟩ => show win1_0.index t (0 : Fin 2) * 1 + 1 * (y 0).val = (y 0).val; omega
    | ⟨1, _⟩ => show win1_0.index t (1 : Fin 2) * 1024 + 1 * (y 1).val = (y 1).val; omega
  rw [h]

/-- Input window 1's block is its whole array. -/
private theorem wholeBlock1_1 (c : Dev nD) (t : Fin cfg1.N) : iblk1 V c 1 t = V c main_v7 := by
  funext y
  show V c main_v7 (((cfg1.win 1).blk t).view.emb y) = V c main_v7 y
  have h : ((cfg1.win 1).blk t).view.emb y = y := by
    obtain ⟨e0, e1⟩ := index1_1 t
    funext a; apply Fin.ext
    match a with
    | ⟨0, _⟩ => show win1_1.index t (0 : Fin 2) * 1 + 1 * (y 0).val = (y 0).val; omega
    | ⟨1, _⟩ => show win1_1.index t (1 : Fin 2) * 1024 + 1 * (y 1).val = (y 1).val; omega
  rw [h]

/-- Input window 2's block is its whole array. -/
private theorem wholeBlock1_2 (c : Dev nD) (t : Fin cfg1.N) : iblk1 V c 2 t = V c main_arg8 := by
  funext y
  show V c main_arg8 (((cfg1.win 2).blk t).view.emb y) = V c main_arg8 y
  have h : ((cfg1.win 2).blk t).view.emb y = y := by
    obtain ⟨e0, e1⟩ := index1_2 t
    funext a; apply Fin.ext
    match a with
    | ⟨0, _⟩ => show win1_2.index t (0 : Fin 2) * 3072 + 1 * (y 0).val = (y 0).val; omega
    | ⟨1, _⟩ => show win1_2.index t (1 : Fin 2) * 1024 + 1 * (y 1).val = (y 1).val; omega
  rw [h]

/-- Input window 3's block is its whole array. -/
private theorem wholeBlock1_3 (c : Dev nD) (t : Fin cfg1.N) : iblk1 V c 3 t = V c main_arg9 := by
  funext y
  show V c main_arg9 (((cfg1.win 3).blk t).view.emb y) = V c main_arg9 y
  have h : ((cfg1.win 3).blk t).view.emb y = y := by
    obtain ⟨e0, e1⟩ := index1_3 t
    funext a; apply Fin.ext
    match a with
    | ⟨0, _⟩ => show win1_3.index t (0 : Fin 2) * 3072 + 1 * (y 0).val = (y 0).val; omega
    | ⟨1, _⟩ => show win1_3.index t (1 : Fin 2) * 1024 + 1 * (y 1).val = (y 1).val; omega
  rw [h]

/-- Input window 4's block is its whole array. -/
private theorem wholeBlock1_4 (c : Dev nD) (t : Fin cfg1.N) : iblk1 V c 4 t = V c main_v10 := by
  funext y
  show V c main_v10 (((cfg1.win 4).blk t).view.emb y) = V c main_v10 y
  have h : ((cfg1.win 4).blk t).view.emb y = y := by
    obtain ⟨e0, e1⟩ := index1_4 t
    funext a; apply Fin.ext
    match a with
    | ⟨0, _⟩ => show win1_4.index t (0 : Fin 2) * 1 + 1 * (y 0).val = (y 0).val; omega
    | ⟨1, _⟩ => show win1_4.index t (1 : Fin 2) * 3072 + 1 * (y 1).val = (y 1).val; omega
  rw [h]

/-- Input window 5's block is its whole array. -/
private theorem wholeBlock1_5 (c : Dev nD) (t : Fin cfg1.N) : iblk1 V c 5 t = V c main_v11 := by
  funext y
  show V c main_v11 (((cfg1.win 5).blk t).view.emb y) = V c main_v11 y
  have h : ((cfg1.win 5).blk t).view.emb y = y := by
    obtain ⟨e0, e1⟩ := index1_5 t
    funext a; apply Fin.ext
    match a with
    | ⟨0, _⟩ => show win1_5.index t (0 : Fin 2) * 1 + 1 * (y 0).val = (y 0).val; omega
    | ⟨1, _⟩ => show win1_5.index t (1 : Fin 2) * 3072 + 1 * (y 1).val = (y 1).val; omega
  rw [h]

/-- Output window 6's block, read off any contents of its array, is those contents. -/
private theorem readBlock1_6 (t : Fin cfg1.N) (G : Vec F S1x1024 .f32) : ((cfg1.win 6).blk t).view.read (Elt F) G = G := by
  funext y
  show G (((cfg1.win 6).blk t).view.emb y) = G y
  have h : ((cfg1.win 6).blk t).view.emb y = y := by
    obtain ⟨e0, e1⟩ := index1_6 t
    funext a; apply Fin.ext
    match a with
    | ⟨0, _⟩ => show win1_6.index t (0 : Fin 2) * 1 + 1 * (y 0).val = (y 0).val; omega
    | ⟨1, _⟩ => show win1_6.index t (1 : Fin 2) * 1024 + 1 * (y 1).val = (y 1).val; omega
  rw [h]

/-- Output window 6's block holds every index of its array. -/
private theorem mem_blk1_6 (t : Fin cfg1.N) (i : S1x1024.Idx) : i ∈ ((cfg1.win 6).blk t).view.set := by
  show i ∈ ((View.whole main_v13).slice (win1_6.rect t)).set
  rw [View.set_slice_whole, Rect.mem_set_unit]
  obtain ⟨e0, e1⟩ := index1_6 t
  intro a
  match a with
  | ⟨0, _⟩ =>
    show win1_6.index t (0 : Fin 2) * 1 ≤ (i 0).val ∧ (i 0).val < win1_6.index t (0 : Fin 2) * 1 + 1
    have hi : (i 0).val < 1 := (i 0).isLt
    omega
  | ⟨1, _⟩ =>
    show win1_6.index t (1 : Fin 2) * 1024 ≤ (i 1).val ∧ (i 1).val < win1_6.index t (1 : Fin 2) * 1024 + 1024
    have hi : (i 1).val < 1024 := (i 1).isLt
    omega

/-- After the GRU launch its result array (the new hidden state) is the body's store of the input arrays. -/
theorem arr1_6 (c : Dev nD) :
    (dat1 (F := F) V c).arrAt 6 cfg1.N
      = out1_6 (V c main_v12_0) (V c main_v7) (V c main_arg8) (V c main_arg9) (V c main_v10) (V c main_v11) := by
  refine (dat1 V c).arrAt_eq_of_cover 6 _ (fun t _ => ?_) (fun i => ⟨⟨0, by decide⟩, flush1_6 _, mem_blk1_6 _ i⟩)
  show (cfg1.win 6).cut (grid1.coords t) ((dat1 V c).after 6 t) = _
  rw [after1_6, wholeBlock1_0, wholeBlock1_1, wholeBlock1_2, wholeBlock1_3, wholeBlock1_4, wholeBlock1_5, readBlock1_6]
  rfl

end Cert.KernelIdeal.Blocks

end
-- ==== Proof.LibDotTransposedRhs.lean ====
/-
  The product of an M×K array with the transpose of an N×K array — both operands contracted on their LAST axis, no batch
  axis —, read at an output index (r, c), is the sum over the one contracted coordinate k of the left operand at (r, k)
  times the right operand at (c, k). Stated once for those dimension numbers (`DotDims.transposedRhs`), for a product
  into a zero accumulator inside a kernel body and for the host's product, both over the extended reals. A program's own
  dimension-number record of this form is equal to that one by unfolding.
-/
import Idealize.ShloMosaic.PureOps.Ideal.Laws
import Idealize.ShloMosaic.Lib.ValueIdx

noncomputable section

open scoped BigOperators

namespace TransposedRhsDot

open Idealize.ShloMosaic Idealize.ShloMosaic.ValueIdx

variable (M K N : Nat)

/-- The left operand's index at output index `j` and contraction index `q`: the row of `j`, … -/
theorem lhs0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
/-- … and the contracted coordinate. -/
theorem lhs1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
/-- The right operand's index: the COLUMN of `j` (the right operand's rows are the output's columns), … -/
theorem rhs0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
/-- … and the contracted coordinate. -/
theorem rhs1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum at the output index (r, c), re-indexed by the one contracted coordinate. -/
theorem sum_eq (x : (⟨2, ![M, K]⟩ : Shape).Idx → EReal) (w : (⟨2, ![N, K]⟩ : Shape).Idx → EReal) (r : Fin M) (c : Fin N) :
    ∑ q : (DotDims.transposedRhs M K N).contr.Idx,
        x ((DotDims.transposedRhs M K N).lhsIdx (ix2 r c) q) * w ((DotDims.transposedRhs M K N).rhsIdx (ix2 r c) q)
      = ∑ k : Fin K, x (ix2 r k) * w (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k := funext fun a => Fin.ext (by
    match a with
    | ⟨0, _⟩ => exact lhs0 M K N _ _
    | ⟨1, _⟩ => exact (lhs1 M K N _ _).trans hk)
  have er : (DotDims.transposedRhs M K N).rhsIdx (ix2 r c) ((contrEquiv1 (DotDims.transposedRhs M K N) K rfl rfl).symm k)
      = ix2 c k := funext fun a => Fin.ext (by
    match a with
    | ⟨0, _⟩ => exact rhs0 M K N _ _
    | ⟨1, _⟩ => exact (rhs1 M K N _ _).trans hk)
  rw [el, er]

/-- A kernel's product into the zero accumulator, at (r, c). -/
theorem matmul_zero_apply {φ₁ φ₂ : FTy} (x : FVec Ideal ⟨2, ![M, K]⟩ φ₁) (w : FVec Ideal ⟨2, ![N, K]⟩ φ₂) (r : Fin M) (c : Fin N) :
    FloatOps.matmul (DotDims.transposedRhs M K N) none x w (constant ⟨2, ![M, N]⟩ .f32 0x00000000#32) (ix2 r c)
      = ∑ k : Fin K, x (ix2 r k) * w (ix2 c k) := by
  rw [Ideal.matmul_constant_zero_apply]
  exact sum_eq M K N x w r c

/-- The host's product, at (r, c). -/
theorem dotGeneral_apply {φ₁ φ₂ : FTy} (sched : HostSchedule) (x : FVec Ideal ⟨2, ![M, K]⟩ φ₁) (w : FVec Ideal ⟨2, ![N, K]⟩ φ₂)
    (r : Fin M) (c : Fin N) :
    FloatOps.dotGeneral (DotDims.transposedRhs M K N) none sched x w (ix2 r c)
      = ∑ k : Fin K, x (ix2 r k) * w (ix2 c k) := by
  rw [Ideal.dotGeneral_apply]
  exact sum_eq M K N x w r c

end TransposedRhsDot

end
-- ==== Proof.KProj.lean ====
/-
  The output projection launch, read as a value.  Its grid has 25 points; point t reads the new hidden state whole,
  rows 2048·t … 2048·t+2047 of the padded weight matrix and the same columns of the padded bias, and writes those
  columns of the padded logits.  The blocks tile the padded logits, so the array ends as one function of the three
  input arrays: at column v, the inner product of the hidden state with row v of the weights, plus the bias at v.
-/
import proofs.«146384_j2130303779125_1_alg».proof.Proof.Gen.KernelIdeal.Frame
import proofs.«146384_j2130303779125_1_alg».proof.Proof.LibDotTransposedRhs
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Proj

open Idealize.ShloMosaic Idealize.ShloMosaic.TcCoe Idealize.ShloMosaic.ValueIdx Idealize.SL.Sem Cert.KernelIdeal Cert.KernelIdeal.Gen
open Idealize.ShloMosaic.Pipeline (Dat Cfg Window)

/-! ## The index maps over the 25 grid points -/

/-- The two zero offsets of a whole-buffer access, as the constant function. -/
private theorem zero_offsets : (![0, 0] : Fin 2 → Nat) = fun _ => 0 := funext fun a => by fin_cases a <;> rfl

/-- At every grid point: the weight block's row index is the logits block's column index and its column index is zero;
    the bias block moves with the logits block; the hidden state's block is the whole array; the logits block sits in
    row zero at a column index of at most 24. Decided over the 25 points. -/
private theorem index_facts : ∀ t : Fin cfg2.N, win2_1.index t (0 : Fin 2) = win2_3.index t (1 : Fin 2) ∧ win2_1.index t (1 : Fin 2) = 0
    ∧ win2_2.index t (0 : Fin 2) = 0 ∧ win2_2.index t (1 : Fin 2) = win2_3.index t (1 : Fin 2)
    ∧ win2_0.index t (0 : Fin 2) = 0 ∧ win2_0.index t (1 : Fin 2) = 0
    ∧ win2_3.index t (0 : Fin 2) = 0 ∧ win2_3.index t (1 : Fin 2) ≤ 24 :=
  (by decide +kernel : ∀ t : Fin grid2.N, _)

/-- Every one of the 25 column blocks of the padded logits is some grid point's. -/
private theorem index_onto : ∀ q : Fin 25, ∃ t : Fin cfg2.N, win2_3.index t = ![0, q.val] :=
  (by decide +kernel : ∀ q : Fin 25, ∃ t : Fin grid2.N, win2_3.index t = ![0, q.val])

/-- Column `q` of the block at point `t` is a column of the 51200. -/
private theorem col_lt (t : Fin cfg2.N) (q : Fin 2048) : win2_3.index t (1 : Fin 2) * 2048 + q.val < 51200 := by
  obtain ⟨-, -, -, -, -, -, -, h⟩ := index_facts t
  have := q.isLt
  omega

/-- An index of a one-row block is row zero and a column. -/
private theorem row_index (j : S1x2048.Idx) : ∃ q : Fin 2048, j = ix2 (0 : Fin 1) q :=
  ⟨j 1, funext fun a => match a with
    | ⟨0, _⟩ => Fin.ext (by have h : (j 0).val < 1 := idx2_lt0 j; show (j 0).val = 0; omega)
    | ⟨1, _⟩ => rfl⟩

/-! ## The body's payload at a column -/

/-- The payload at column `q`: the casts to the same shape and the roundings are identities over the extended reals,
    the product into the zero accumulator contracts both operands on their last axis, and the bias is added. -/
private theorem payload_apply (x0 : Vec Ideal S1x1024 .f32) (x1 : Vec Ideal S2048x1024 .f32) (x2 : Vec Ideal S1x2048 .f32) (q : Fin 2048) :
    k2_pay1 x0 x1 x2 (ix2 (0 : Fin 1) q) = (∑ k : Fin 1024, x0 (ix2 0 k) * x1 (ix2 q k)) + x2 (ix2 0 q) := by
  unfold k2_pay1
  simp only [shapeCast_self]
  rw [addf_apply]
  refine congrArg (· + x2 (ix2 0 q)) ?_
  have hd : dot_S1x1024_S2048x1024_S1x2048_1_1_0_0_n_n = DotDims.transposedRhs 1 1024 2048 := rfl
  rw [hd]
  refine (TransposedRhsDot.matmul_zero_apply 1 1024 2048 (truncf .bf16 x0 bitsLt_bf16_f32) (truncf .bf16 x1 bitsLt_bf16_f32) 0 q).trans ?_
  refine Finset.sum_congr rfl fun k _ => ?_
  rw [truncf_apply, truncf_apply]

/-- The padded logits as one function of the hidden state, the padded weights and the padded bias. -/
def kProj (hn : Vec Ideal S1x1024 .f32) (Wp : Vec Ideal S51200x1024 .f32) (bp : Vec Ideal S1x51200 .f32) : Vec Ideal S1x51200 .f32 :=
  fun j => (∑ k : Fin 1024, hn (ix2 (0 : Fin 1) k) * Wp (ix2 (⟨(j 1).val, idx2_lt1 j⟩ : Fin 51200) k)) + bp j

variable (V : (c : Dev nD) → (b : Ref sig .tc) → Buf (Elt Ideal) ((c : Thread nD τ).loc b))

/-! ## Each block, read where the logits block's rectangle says

A block's element sits in its array, on each axis, at the block index times the block's size plus its own coordinate. -/

/-- The hidden state's block is the hidden state. -/
private theorem hidden_block (c : Dev nD) (t : Fin cfg2.N) (k : Fin 1024) :
    iblk2 V c 0 t (ix2 (0 : Fin 1) k) = V c main_v13 (ix2 (0 : Fin 1) k) := by
  unfold iblk2
  rw [View.read_apply]
  show V c main_v13 (((cfg2.win 0).blk t).view.emb (ix2 (0 : Fin 1) k)) = _
  refine congrArg (V c main_v13) ?_
  obtain ⟨-, -, -, -, e0, e1, -, -⟩ := index_facts t
  funext a; apply Fin.ext
  match a with
  | ⟨0, _⟩ => show win2_0.index t (0 : Fin 2) * 1 + 1 * (0 : Nat) = 0; omega
  | ⟨1, _⟩ => show win2_0.index t (1 : Fin 2) * 1024 + 1 * k.val = k.val; omega

/-- Row `q` of the weight block at point `t` is the weights' row at the logits block's column `q`. -/
private theorem weight_block (c : Dev nD) (t : Fin cfg2.N) (q : Fin 2048) (k : Fin 1024) :
    iblk2 V c 1 t (ix2 q k) = V c main_v14 (ix2 (⟨win2_3.index t (1 : Fin 2) * 2048 + q.val, col_lt t q⟩ : Fin 51200) k) := by
  unfold iblk2
  rw [View.read_apply]
  show V c main_v14 (((cfg2.win 1).blk t).view.emb (ix2 q k)) = _
  refine congrArg (V c main_v14) ?_
  obtain ⟨e0, e1, -, -, -, -, -, -⟩ := index_facts t
  funext a; apply Fin.ext
  match a with
  | ⟨0, _⟩ => show win2_1.index t (0 : Fin 2) * 2048 + 1 * q.val = win2_3.index t (1 : Fin 2) * 2048 + q.val; omega
  | ⟨1, _⟩ => show win2_1.index t (1 : Fin 2) * 1024 + 1 * k.val = k.val; omega

/-- Column `q` of the bias block at point `t` is the bias at the logits block's column `q`. -/
private theorem bias_block (c : Dev nD) (t : Fin cfg2.N) (q : Fin 2048) :
    iblk2 V c 2 t (ix2 (0 : Fin 1) q) = V c main_v16 (ix2 (0 : Fin 1) (⟨win2_3.index t (1 : Fin 2) * 2048 + q.val, col_lt t q⟩ : Fin 51200)) := by
  unfold iblk2
  rw [View.read_apply]
  show V c main_v16 (((cfg2.win 2).blk t).view.emb (ix2 (0 : Fin 1) q)) = _
  refine congrArg (V c main_v16) ?_
  obtain ⟨-, -, e0, e1, -, -, -, -⟩ := index_facts t
  funext a; apply Fin.ext
  match a with
  | ⟨0, _⟩ => show win2_2.index t (0 : Fin 2) * 1 + 1 * (0 : Nat) = 0; omega
  | ⟨1, _⟩ => show win2_2.index t (1 : Fin 2) * 2048 + 1 * q.val = win2_3.index t (1 : Fin 2) * 2048 + q.val; omega

/-- Column `q` of the logits block at point `t`, as an index of the padded logits. -/
private theorem logits_block_index (t : Fin cfg2.N) (q : Fin 2048) :
    ((cfg2.win 3).blk t).view.emb (ix2 (0 : Fin 1) q) = ix2 (0 : Fin 1) (⟨win2_3.index t (1 : Fin 2) * 2048 + q.val, col_lt t q⟩ : Fin 51200) := by
  obtain ⟨-, -, -, -, -, -, e0, e1⟩ := index_facts t
  funext a; apply Fin.ext
  match a with
  | ⟨0, _⟩ => show win2_3.index t (0 : Fin 2) * 1 + 1 * (0 : Nat) = 0; omega
  | ⟨1, _⟩ => show win2_3.index t (1 : Fin 2) * 2048 + 1 * q.val = win2_3.index t (1 : Fin 2) * 2048 + q.val; omega

/-! ## What a point writes back, and the cover -/

/-- What point `t` writes back is block `t` of `kProj` of the three arrays as the launch finds them. -/
private theorem flushed_eq (c : Dev nD) (t : Fin cfg2.N) :
    (dat2 (F := Ideal) V c).flushed 3 t = ((cfg2.win 3).blk t).view.read (Elt Ideal) (kProj (V c main_v13) (V c main_v14) (V c main_v16)) := by
  show (cfg2.win 3).cut (grid2.coords t) ((dat2 (F := Ideal) V c).after 3 t) = _
  rw [after2_3]
  unfold out2_3
  rw [View.canon_unit_zero zero_offsets]
  simp only [View.ld_unit_zero (S := S1x1024) zero_offsets, View.ld_unit_zero (S := S2048x1024) zero_offsets, View.ld_unit_zero (S := S1x2048) zero_offsets]
  funext j
  obtain ⟨q, rfl⟩ := row_index j
  rw [View.read_apply, logits_block_index t q]
  show k2_pay1 (iblk2 V c 0 t) (iblk2 V c 1 t) (iblk2 V c 2 t) (ix2 (0 : Fin 1) q) = kProj (V c main_v13) (V c main_v14) (V c main_v16) (ix2 (0 : Fin 1) (⟨win2_3.index t (1 : Fin 2) * 2048 + q.val, col_lt t q⟩ : Fin 51200))
  refine (payload_apply (iblk2 V c 0 t) (iblk2 V c 1 t) (iblk2 V c 2 t) q).trans ?_
  unfold kProj
  rw [bias_block V c t q]
  refine congrArg (· + V c main_v16 (ix2 (0 : Fin 1) (⟨win2_3.index t (1 : Fin 2) * 2048 + q.val, col_lt t q⟩ : Fin 51200))) ?_
  refine Finset.sum_congr rfl fun k _ => ?_
  rw [hidden_block V c t k, weight_block V c t q k]

/-- An index of the padded logits is in point `t`'s block iff each coordinate is in the block's range on its axis. -/
private theorem mem_logits_block (t : Fin cfg2.N) (i : S1x51200.Idx) :
    i ∈ ((cfg2.win 3).blk t).view.set ↔ ∀ a : Fin 2, win2_3.index t a * S1x2048.size a ≤ (i a).val ∧ (i a).val < win2_3.index t a * S1x2048.size a + S1x2048.size a := by
  show i ∈ ((View.whole main_v17).slice (win2_3.rect t)).set ↔ _
  rw [View.set_slice_whole, Rect.mem_set_unit]
  exact Iff.rfl

/-- The 25 blocks tile the padded logits: column `v` lies in block `v / 2048`. -/
private theorem logits_covered (i : S1x51200.Idx) : ∃ t : Fin cfg2.N, (cfg2.win 3).flush t = true ∧ i ∈ ((cfg2.win 3).blk t).view.set := by
  have hi0 : (i 0).val < 1 := idx2_lt0 i
  have hi1 : (i 1).val < 51200 := idx2_lt1 i
  obtain ⟨t, ht⟩ := index_onto ⟨(i 1).val / 2048, by omega⟩
  have q0 : win2_3.index t (0 : Fin 2) = 0 := congrFun ht 0
  have q1 : win2_3.index t (1 : Fin 2) = (i 1).val / 2048 := congrFun ht 1
  refine ⟨t, flush2_3 t, ?_⟩
  rw [mem_logits_block]
  intro a
  match a with
  | ⟨0, _⟩ => show win2_3.index t (0 : Fin 2) * 1 ≤ (i 0).val ∧ (i 0).val < win2_3.index t (0 : Fin 2) * 1 + 1; omega
  | ⟨1, _⟩ => show win2_3.index t (1 : Fin 2) * 2048 ≤ (i 1).val ∧ (i 1).val < win2_3.index t (1 : Fin 2) * 2048 + 2048; omega

/-- After the projection launch the padded-logits array is `kProj` of the arrays the launch found. -/
theorem arr2_3 (c : Dev nD) :
    (dat2 (F := Ideal) V c).arrAt 3 cfg2.N = kProj (V c main_v13) (V c main_v14) (V c main_v16) :=
  (dat2 (F := Ideal) V c).arrAt_eq_of_cover 3 (kProj (V c main_v13) (V c main_v14) (V c main_v16))
    (fun t _ => flushed_eq V c t) logits_covered

end Cert.KernelIdeal.Proj

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.AttnBridge.lean ====
/-
  The attention weights, kernel against reference.  The kernel multiplies the embedding row and the hidden state
  separately by the two halves of the attention matrix and adds; the reference multiplies their concatenation by
  the whole matrix.  A sum over 2048 coordinates is the sum over the first 1024 plus the sum over the last 1024, so
  the logits agree; the softmax that follows is the same on both sides (a lane maximum and a lane sum in the kernel,
  a host maximum-reduce and add-reduce in the reference).
-/
import proofs.«146384_j2130303779125_1_alg».proof.Proof.Gen.KernelIdeal.Frame
import proofs.«146384_j2130303779125_1_alg».proof.Proof.Stages
import proofs.«146384_j2130303779125_1_alg».proof.Proof.LibPlainDot
import proofs.«146384_j2130303779125_1_alg».proof.Proof.LibDotTransposedRhs
import proofs.«146384_j2130303779125_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Idealize.ShloMosaic Idealize.ShloMosaic.TcCoe Idealize.ShloMosaic.ValueIdx

open Cert.KernelIdeal Cert.KernelIdeal.Gen

/-! ## The two halves of the kernel's value: logits, then a softmax -/

/-- The kernel's logits: the two products, one per half of the attention matrix, added, plus the bias row. -/
private def kLogit (v0 v2 : Vec Ideal S1x1024 .f32) (v6 v8 : Vec Ideal S100x1024 .f32) (v13 : Vec Ideal S1x100 .f32) :
    FVec Ideal S1x100 .f32 :=
  addf (addf
      (matmul dot_S1x1024_S100x1024_S1x100_1_1_0_0_n_n none (k0_pay2 v0) (truncf .bf16 v6 bitsLt_bf16_f32)
        (constant S1x100 .f32 0x00000000#32))
      (matmul dot_S1x1024_S100x1024_S1x100_1_1_0_0_n_n none
        (truncf .bf16 (shapeCast S1x1024 v2 shapeCasts_S1x1024_S1x1024) bitsLt_bf16_f32) (truncf .bf16 v8 bitsLt_bf16_f32)
        (constant S1x100 .f32 0x00000000#32)))
    (shapeCast S1x100 v13 shapeCasts_S1x100_S1x100)

/-- The row maximum the kernel subtracts, spread back over the row. -/
private def kMax (l : FVec Ideal S1x100 .f32) : FVec Ideal S1x100 .f32 :=
  broadcastTo S1x100 (shapeCast S1x1 (maximumf (broadcast S1 (Scalar.ofBits .f32 0xFF800000#32))
    (multiReduction .maximumf [1] S1 l 0xFF800000#32 reduces_S1x100_S1 (.inl rfl) rfl)) shapeCasts_S1_S1x1) broadcasts_S1x1_S1x100

/-- The kernel's softmax numerator. -/
private def kNum (l : FVec Ideal S1x100 .f32) : FVec Ideal S1x100 .f32 := exp (subf l (kMax l))

/-- The row sum the kernel divides by, spread back over the row. -/
private def kDen (n : FVec Ideal S1x100 .f32) : FVec Ideal S1x100 .f32 :=
  broadcastTo S1x100 (shapeCast S1x1 (multiReduction .add [1] S1 n 0x00000000#32 reduces_S1x100_S1 (.inl rfl) rfl) shapeCasts_S1_S1x1)
    broadcasts_S1x1_S1x100

/-- The kernel's softmax. -/
private def kSoftmax (l : FVec Ideal S1x100 .f32) : FVec Ideal S1x100 .f32 := divf (kNum l) (kDen (kNum l))

/-- The body's value is the softmax chain of the logits. -/
private theorem k0_pay3_eq (v0 v2 : Vec Ideal S1x1024 .f32) (v6 v8 : Vec Ideal S100x1024 .f32) (v13 : Vec Ideal S1x100 .f32) :
    k0_pay3 (F := Ideal) v0 v2 v6 v8 v13 = kSoftmax (kLogit v0 v2 v6 v8 v13) := rfl

/-! ## The softmax -/

/-- The index a reduction over the second axis inserts a coordinate at is the row index with that coordinate. -/
private theorem lift_row (h : (⟨2, ![1, 100]⟩ : Shape).Reduces [1] ⟨1, ![1]⟩) (r : Fin 1)
    (k : Fin ((⟨2, ![1, 100]⟩ : Shape).size 1)) : h.lift (ix1 r) k = ix2 (n1 := 100) r k := by
  funext ax
  apply Fin.ext
  match ax with
  | ⟨0, _⟩ => rfl
  | ⟨1, _⟩ => rfl

/-- The kernel's row maximum at a position: the larger of -∞ and the fold of max from -∞ over the row. -/
private theorem kMax_apply (l : FVec Ideal ⟨2, ![1, 100]⟩ .f32) (c : Fin 100) :
    kMax l (ix2 (0 : Fin 1) c)
      = max (Ideal.ofBits .f32 0xFF800000#32)
          ((Finset.univ : Finset (Fin 100)).fold max (Ideal.ofBits .f32 0xFF800000#32) fun k => l (ix2 (0 : Fin 1) k)) := by
  unfold kMax
  rw [Keepdims.broadcastTo_a1_ab_apply, Keepdims.shapeCast_a_a1_apply]
  refine congrArg (max (Ideal.ofBits .f32 0xFF800000#32)) ?_
  refine (Ideal.multiReduction_maximumf_single l _ reduces_S1x100_S1 _ _ (ix1 0)).trans ?_
  exact congrArg (fun f => Finset.fold max (Ideal.ofBits .f32 0xFF800000#32) f Finset.univ)
    (funext fun k => congrArg l (lift_row _ 0 k))

/-- The reference's row maximum at a position, the same. -/
private theorem rMax_apply (l : FVec Ideal ⟨2, ![1, 100]⟩ .f32)
    (hb2 : (⟨2, ![1, 1]⟩ : Shape).BroadcastsInDim ⟨2, ![1, 100]⟩ ![0, 1])
    (hb1 : (⟨1, ![1]⟩ : Shape).BroadcastsInDim ⟨2, ![1, 1]⟩ ![0])
    (hb0 : (⟨0, ![]⟩ : Shape).BroadcastsInDim ⟨1, ![1]⟩ ![])
    (hr : (⟨2, ![1, 100]⟩ : Shape).ReducesTo [1] ⟨1, ![1]⟩) (hu : 0 < (⟨0, ![]⟩ : Shape).numel) (c : Fin 100) :
    broadcastInDim ⟨2, ![1, 100]⟩ ![0, 1] hb2 (broadcastInDim ⟨2, ![1, 1]⟩ ![0] hb1
      (maximumf (broadcastInDim ⟨1, ![1]⟩ ![] hb0 (constant ⟨0, ![]⟩ .f32 0xFF800000#32))
        (Host.reduce FloatOps.maximumf l (constant ⟨0, ![]⟩ .f32 0xFF800000#32) hr hu))) (ix2 (0 : Fin 1) c)
      = max (Ideal.ofBits .f32 0xFF800000#32)
          ((Finset.univ : Finset (Fin 100)).fold max (Ideal.ofBits .f32 0xFF800000#32) fun k => l (ix2 (0 : Fin 1) k)) := by
  rw [broadcastInDim_apply _ hb2 _ (ix2 (0 : Fin 1) c) (ix2 (0 : Fin 1) (0 : Fin 1)) (fun a => by
        match a with
        | ⟨0, _⟩ => rfl
        | ⟨1, _⟩ => rfl),
    broadcastInDim_apply _ hb1 _ (ix2 (0 : Fin 1) (0 : Fin 1)) (ix1 (0 : Fin 1)) (fun a => by
        match a with
        | ⟨0, _⟩ => rfl)]
  refine congrArg (max (Ideal.ofBits .f32 0xFF800000#32)) ?_
  refine (Host.reduce_eq_fold_single FloatOps.maximumf l _ hr reduces_S1x100_S1 hu (ix1 0)).trans ?_
  exact congrArg (fun f => Finset.fold max (Ideal.ofBits .f32 0xFF800000#32) f Finset.univ)
    (funext fun k => congrArg l (lift_row _ 0 k))

/-- The kernel's row sum at a position: the sum of the row. -/
private theorem kDen_apply (n : FVec Ideal ⟨2, ![1, 100]⟩ .f32) (c : Fin 100) :
    kDen n (ix2 (0 : Fin 1) c) = ∑ k : Fin 100, n (ix2 (0 : Fin 1) k) := by
  unfold kDen
  rw [Keepdims.broadcastTo_a1_ab_apply, Keepdims.shapeCast_a_a1_apply]
  exact Keepdims.laneSum_apply n _ _ _ _ 0

/-- The reference's row sum at a position, the same. -/
private theorem rDen_apply (n : FVec Ideal ⟨2, ![1, 100]⟩ .f32)
    (hb2 : (⟨2, ![1, 1]⟩ : Shape).BroadcastsInDim ⟨2, ![1, 100]⟩ ![0, 1])
    (hb1 : (⟨1, ![1]⟩ : Shape).BroadcastsInDim ⟨2, ![1, 1]⟩ ![0])
    (hr : (⟨2, ![1, 100]⟩ : Shape).ReducesTo [1] ⟨1, ![1]⟩) (hu : 0 < (⟨0, ![]⟩ : Shape).numel) (c : Fin 100) :
    broadcastInDim ⟨2, ![1, 100]⟩ ![0, 1] hb2 (broadcastInDim ⟨2, ![1, 1]⟩ ![0] hb1
      (Host.reduceAdd n (constant ⟨0, ![]⟩ .f32 0x00000000#32) hr hu)) (ix2 (0 : Fin 1) c)
      = ∑ k : Fin 100, n (ix2 (0 : Fin 1) k) := by
  rw [broadcastInDim_apply _ hb2 _ (ix2 (0 : Fin 1) c) (ix2 (0 : Fin 1) (0 : Fin 1)) (fun a => by
        match a with
        | ⟨0, _⟩ => rfl
        | ⟨1, _⟩ => rfl),
    broadcastInDim_apply _ hb1 _ (ix2 (0 : Fin 1) (0 : Fin 1)) (ix1 (0 : Fin 1)) (fun a => by
        match a with
        | ⟨0, _⟩ => rfl)]
  show Ideal.hostReduceAdd hr n (Ideal.ofBits .f32 0x00000000#32) (ix1 0) = _
  rw [Ideal.hostReduceAdd_single hr reduces_S1x100_S1 n _ (ix1 0), Ideal.ofBits_zero_f32, zero_add]
  exact Finset.sum_congr rfl fun k _ => congrArg n (lift_row _ 0 k)

/-- The kernel's softmax chain is the reference's softmax. -/
private theorem kSoftmax_eq (l : Vec Ideal S1x100 .f32) : kSoftmax l = rSoftmax (F := Ideal) l := by
  have hnum : kNum l = rSmNum (F := Ideal) l := by
    funext j
    obtain ⟨r, c, rfl⟩ : ∃ r c, j = ix2 r c := ⟨j 0, j 1, eq_ix2 j⟩
    obtain rfl : r = 0 := Subsingleton.elim _ _
    show Ideal.exp (l (ix2 0 c) - kMax l (ix2 0 c)) = Ideal.exp (l (ix2 0 c) - _)
    rw [kMax_apply, rMax_apply]
  funext j
  obtain ⟨r, c, rfl⟩ : ∃ r c, j = ix2 r c := ⟨j 0, j 1, eq_ix2 j⟩
  obtain rfl : r = 0 := Subsingleton.elim _ _
  show Ideal.div (kNum l (ix2 0 c)) (kDen (kNum l) (ix2 0 c)) = Ideal.div (rSmNum (F := Ideal) l (ix2 0 c)) _
  rw [hnum, kDen_apply, rDen_apply]

/-! ## The logits -/

/-- A load of the first 1024 columns of the attention matrix reads the matrix at the same row and column. -/
private theorem ld_lo_apply (x4 : Vec Ideal ⟨2, ![100, 2048]⟩ .f32) (c : Fin 100) (k : Fin 1024) :
    View.ld x4 r0_1 (ix2 c k) = x4 (ix2 (n1 := 2048) c (Fin.castAdd 1024 k)) := by
  show x4 (r0_1.idx (ix2 c k)) = _
  refine congrArg x4 (funext fun a => Fin.ext ?_)
  match a with
  | ⟨0, _⟩ => show 0 + 1 * c.val = c.val; omega
  | ⟨1, _⟩ => show 0 + 1 * k.val = k.val; omega

/-- A load of the last 1024 columns reads the matrix at the same row, 1024 columns further. -/
private theorem ld_hi_apply (x4 : Vec Ideal ⟨2, ![100, 2048]⟩ .f32) (c : Fin 100) (k : Fin 1024) :
    View.ld x4 r0_2 (ix2 c k) = x4 (ix2 (n1 := 2048) c (Fin.natAdd 1024 k)) := by
  show x4 (r0_2.idx (ix2 c k)) = _
  refine congrArg x4 (funext fun a => Fin.ext ?_)
  match a with
  | ⟨0, _⟩ => show 0 + 1 * c.val = c.val; omega
  | ⟨1, _⟩ => show 1024 + 1 * k.val = 1024 + k.val; omega

/-- One of the kernel's two products at a column: a row of 1024 against row c of a 100 × 1024 block. -/
private theorem kDot_apply {φ₁ φ₂ : FTy} (x : FVec Ideal ⟨2, ![1, 1024]⟩ φ₁) (w : FVec Ideal ⟨2, ![100, 1024]⟩ φ₂) (c : Fin 100) :
    matmul dot_S1x1024_S100x1024_S1x100_1_1_0_0_n_n none x w (constant S1x100 .f32 0x00000000#32) (ix2 (0 : Fin 1) c)
      = ∑ k : Fin 1024, x (ix2 (0 : Fin 1) k) * w (ix2 c k) :=
  TransposedRhsDot.matmul_zero_apply 1 1024 100 x w 0 c

/-- The kernel's logit at a column. -/
private theorem kLogit_apply (e h : Vec Ideal S1x1024 .f32) (w1 w2 : Vec Ideal S100x1024 .f32) (b : Vec Ideal S1x100 .f32) (c : Fin 100) :
    kLogit e h w1 w2 b (ix2 (0 : Fin 1) c)
      = ∑ k : Fin 1024, e (ix2 (0 : Fin 1) k) * w1 (ix2 c k) + ∑ k : Fin 1024, h (ix2 (0 : Fin 1) k) * w2 (ix2 c k)
        + b (ix2 (0 : Fin 1) c) := by
  unfold kLogit k0_pay2
  rw [shapeCast_self, shapeCast_self, shapeCast_self, addf_apply, addf_apply, kDot_apply, kDot_apply]
  rfl

/-- The concatenated row at a column of its first half is the first row there. -/
private theorem cat_lo_apply (e h : Vec Ideal ⟨2, ![1, 1024]⟩ .f32)
    (hc : Shape.Concatenates [(⟨2, ![1, 1024]⟩ : Shape), ⟨2, ![1, 1024]⟩] ⟨2, ![1, 2048]⟩ 1) (k : Fin 1024) :
    concatenate ⟨2, ![1, 2048]⟩ 1 [⟨⟨2, ![1, 1024]⟩, e⟩, ⟨⟨2, ![1, 1024]⟩, h⟩] hc (ix2 (n1 := 2048) (0 : Fin 1) (Fin.castAdd 1024 k))
      = e (ix2 (0 : Fin 1) k) :=
  concatenate_pair_apply_left 1 e h hc _ rfl (ix2 (0 : Fin 1) k) fun b => by
    match b with
    | ⟨0, _⟩ => rfl
    | ⟨1, _⟩ => rfl

/-- The concatenated row at a column of its second half is the second row, 1024 columns back. -/
private theorem cat_hi_apply (e h : Vec Ideal ⟨2, ![1, 1024]⟩ .f32)
    (hc : Shape.Concatenates [(⟨2, ![1, 1024]⟩ : Shape), ⟨2, ![1, 1024]⟩] ⟨2, ![1, 2048]⟩ 1) (k : Fin 1024) :
    concatenate ⟨2, ![1, 2048]⟩ 1 [⟨⟨2, ![1, 1024]⟩, e⟩, ⟨⟨2, ![1, 1024]⟩, h⟩] hc (ix2 (n1 := 2048) (0 : Fin 1) (Fin.natAdd 1024 k))
      = h (ix2 (0 : Fin 1) k) :=
  concatenate_pair_apply_right 1 e h hc _ rfl rfl (ix2 (0 : Fin 1) k)
    (fun b => by
      match b with
      | ⟨0, _⟩ => exact fun _ => rfl
      | ⟨1, _⟩ => exact fun hne => absurd rfl hne)
    (by show k.val + 1024 = 1024 + k.val; omega)

/-- The transposed attention matrix at (k, c) is the matrix at (c, k). -/
private theorem tr_apply (x4 : Vec Ideal ⟨2, ![100, 2048]⟩ .f32)
    (ht : (⟨2, ![100, 2048]⟩ : Shape).Transposes [1, 0] ⟨2, ![2048, 100]⟩) (k : Fin 2048) (c : Fin 100) :
    transpose ⟨2, ![2048, 100]⟩ [1, 0] x4 ht (ix2 k c) = x4 (ix2 c k) :=
  transpose_apply [1, 0] x4 ht (ix2 k c) (ix2 c k) fun b => by
    match b with
    | ⟨0, _⟩ => rfl
    | ⟨1, _⟩ => rfl

/-- The bias spread over the row, at a column. -/
private theorem bias_apply (x5 : Vec Ideal ⟨1, ![100]⟩ .f32)
    (hb : (⟨1, ![100]⟩ : Shape).BroadcastsInDim ⟨2, ![1, 100]⟩ ![1]) (c : Fin 100) :
    broadcastInDim ⟨2, ![1, 100]⟩ ![1] hb x5 (ix2 (0 : Fin 1) c) = x5 (ix1 c) :=
  broadcastInDim_apply ![1] hb x5 (ix2 (0 : Fin 1) c) (ix1 c) fun a => by
    match a with
    | ⟨0, _⟩ => show c.val = if (100 : ℕ) = 1 then 0 else c.val; rw [if_neg (by decide)]

/-- The bias viewed as a row, at a column. -/
private theorem bias_row_apply (x5 : Vec Ideal ⟨1, ![100]⟩ .f32)
    (hs : (⟨1, ![100]⟩ : Shape).ShapeCasts ⟨2, ![1, 100]⟩) (c : Fin 100) :
    shapeCast ⟨2, ![1, 100]⟩ x5 hs (ix2 (0 : Fin 1) c) = x5 (ix1 c) :=
  shapeCast_apply x5 hs _ _ (by
    rw [Shape.rowMajor_val_two, Shape.rowMajor_val_one]
    show c.val = 0 * 100 + c.val
    omega)

/-- The reference's logit at a column, its sum over 2048 coordinates split into the two halves. -/
private theorem rLogit_apply (e h : Vec Ideal S1x1024 .f32) (x4 : Vec Ideal S100x2048 .f32) (x5 : Vec Ideal S100 .f32) (c : Fin 100) :
    rLogit (F := Ideal) e h x4 x5 (ix2 (0 : Fin 1) c)
      = ∑ k : Fin 1024, e (ix2 (0 : Fin 1) k) * x4 (ix2 (n1 := 2048) c (Fin.castAdd 1024 k))
        + ∑ k : Fin 1024, h (ix2 (0 : Fin 1) k) * x4 (ix2 (n1 := 2048) c (Fin.natAdd 1024 k))
        + x5 (ix1 c) := by
  unfold rLogit
  rw [addf_apply, bias_apply]
  refine congrArg (· + x5 (ix1 c)) ?_
  refine (PlainDot.dotGeneral_apply 1 2048 100 _ _ _ (ix2 (0 : Fin 1) c)).trans ?_
  refine (Fin.sum_univ_add (a := 1024) (b := 1024) _).trans ?_
  refine congrArg₂ (· + ·) (Finset.sum_congr rfl fun k _ => ?_) (Finset.sum_congr rfl fun k _ => ?_)
  · exact congrArg₂ (· * ·) (cat_lo_apply e h _ k) (tr_apply x4 _ _ c)
  · exact congrArg₂ (· * ·) (cat_hi_apply e h _ k) (tr_apply x4 _ _ c)

/-- The body's attention-weight value, over the loads the body makes of its blocks, is the reference's softmax of the
    reference's logits. -/
theorem attn_pay_eq (e h : Vec Ideal Cert.KernelIdeal.S1x1024 .f32) (x4 : Vec Ideal Cert.KernelIdeal.S100x2048 .f32) (x5 : Vec Ideal Cert.KernelIdeal.S100 .f32) :
    Cert.KernelIdeal.Gen.k0_pay3 (F := Ideal) (View.ld e Cert.KernelIdeal.Gen.r0_0) (View.ld h Cert.KernelIdeal.Gen.r0_0) (View.ld x4 Cert.KernelIdeal.Gen.r0_1) (View.ld x4 Cert.KernelIdeal.Gen.r0_2)
      (View.ld (shapeCast Cert.KernelIdeal.S1x100 x5 Cert.KernelIdeal.Gen.shapeCasts_S100_S1x100) Cert.KernelIdeal.Gen.r0_3) = rAttn e h x4 x5 := by
  have hz : (![0, 0] : Fin 2 → Nat) = fun _ => 0 := funext fun a => by fin_cases a <;> rfl
  have he : View.ld e r0_0 = e := View.ld_unit_zero (S := S1x1024) hz _ e
  have hh : View.ld h r0_0 = h := View.ld_unit_zero (S := S1x1024) hz _ h
  have hb : View.ld (shapeCast S1x100 x5 shapeCasts_S100_S1x100) r0_3 = shapeCast S1x100 x5 shapeCasts_S100_S1x100 :=
    View.ld_unit_zero (S := S1x100) hz _ _
  -- the logits agree, column by column
  have hl : kLogit (View.ld e r0_0) (View.ld h r0_0) (View.ld x4 r0_1) (View.ld x4 r0_2)
      (View.ld (shapeCast S1x100 x5 shapeCasts_S100_S1x100) r0_3) = rLogit (F := Ideal) e h x4 x5 := by
    rw [he, hh, hb]
    funext j
    obtain ⟨r, c, rfl⟩ : ∃ r c, j = ix2 r c := ⟨j 0, j 1, eq_ix2 j⟩
    obtain rfl : r = 0 := Subsingleton.elim _ _
    rw [kLogit_apply, rLogit_apply, bias_row_apply]
    refine congrArg (· + x5 (ix1 c)) ?_
    exact congrArg₂ (· + ·)
      (Finset.sum_congr rfl fun k _ => congrArg (e (ix2 (0 : Fin 1) k) * ·) (ld_lo_apply x4 c k))
      (Finset.sum_congr rfl fun k _ => congrArg (h (ix2 (0 : Fin 1) k) * ·) (ld_hi_apply x4 c k))
  -- and the same softmax follows on both sides
  exact (k0_pay3_eq _ _ _ _ _).trans ((congrArg kSoftmax hl).trans (kSoftmax_eq _))

/-- The kernel's stored attention weights are the reference's softmax of the reference's logits. -/
theorem attn_eq (e h : Vec Ideal Cert.KernelIdeal.S1x1024 .f32) (x2 : Vec Ideal Cert.KernelIdeal.S100x1024 .f32) (x4 : Vec Ideal Cert.KernelIdeal.S100x2048 .f32)
    (x5 : Vec Ideal Cert.KernelIdeal.S100 .f32) (x6 : Vec Ideal Cert.KernelIdeal.S1024x2048 .f32) (cb : Vec Ideal Cert.KernelIdeal.S1x1024 .f32) :
    Cert.KernelIdeal.Gen.out0_8 (F := Ideal) e h x2 x4 (shapeCast Cert.KernelIdeal.S1x100 x5 Cert.KernelIdeal.Gen.shapeCasts_S100_S1x100) x6 cb = rAttn e h x4 x5 := by
  have hz : (![0, 0] : Fin 2 → Nat) = fun _ => 0 := funext fun a => by fin_cases a <;> rfl
  unfold Cert.KernelIdeal.Gen.out0_8
  rw [View.canon_unit_zero hz]
  exact attn_pay_eq e h x4 x5

end Cert.Bridge

end
-- ==== Proof.CombBridge.lean ====
/-
  The combined input, kernel against reference.  The kernel forms the context as attention weights times encoder
  outputs, multiplies the embedding row and the context separately by the two halves of the combine matrix, adds the
  bias and clamps at zero; the reference multiplies the concatenation (row ‖ context) by the whole matrix.  Again a
  sum over 2048 coordinates splits into two sums over 1024.
-/
import proofs.«146384_j2130303779125_1_alg».proof.Proof.Gen.KernelIdeal.Frame
import proofs.«146384_j2130303779125_1_alg».proof.Proof.Stages
import proofs.«146384_j2130303779125_1_alg».proof.Proof.LibPlainDot
import proofs.«146384_j2130303779125_1_alg».proof.Proof.LibDotTransposedRhs
import proofs.«146384_j2130303779125_1_alg».proof.Proof.LibKeepdims
import proofs.«146384_j2130303779125_1_alg».proof.Proof.AttnBridge
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Idealize.ShloMosaic Idealize.ShloMosaic.TcCoe Idealize.ShloMosaic.ValueIdx

/-! ## The dimension-number records

Each record the two programs print for a product lists its axes in one of two general forms — rows × contraction by
contraction × columns, or both operands contracted on their last axis — and so is that form. -/

/-- Weights times encoder outputs, in the kernel: rows × contraction by contraction × columns. -/
private theorem kernelCtxDims :
    Cert.KernelIdeal.dot_S1x100_S100x1024_S1x1024_1_0_0_1_n_n = DotDims.plain 1 100 1024 := rfl

/-- The same product in the reference. -/
private theorem refCtxDims :
    Cert.ReferenceIdeal.dot_S1x100_S100x1024_S1x1024_1_0_0_1_n_n = DotDims.plain 1 100 1024 := rfl

/-- A row times one half of the combine matrix, in the kernel: both operands contracted on their last axis. -/
private theorem kernelHalfDims :
    Cert.KernelIdeal.dot_S1x1024_S1024x1024_S1x1024_1_1_0_0_n_n = DotDims.transposedRhs 1 1024 1024 := rfl

/-- (row ‖ context) times the transposed combine matrix, in the reference. -/
private theorem refCombDims :
    Cert.ReferenceIdeal.dot_S1x2048_S2048x1024_S1x1024_1_0_0_1_n_n = DotDims.plain 1 2048 1024 := rfl

/-! ## The context -/

/-- The kernel's context — the weights times the encoder outputs, accumulated from zero — is the reference's: both
    read, at column q, the sum over the 100 positions p of weight p times encoder output (p, q). -/
private theorem kernelCtx_eq (aw : Vec Ideal Cert.KernelIdeal.S1x100 .f32) (x2 : Vec Ideal Cert.KernelIdeal.S100x1024 .f32) :
    matmul (F := Ideal) Cert.KernelIdeal.dot_S1x100_S100x1024_S1x1024_1_0_0_1_n_n none
        (truncf .bf16 aw Cert.KernelIdeal.Gen.bitsLt_bf16_f32) (truncf .bf16 x2 Cert.KernelIdeal.Gen.bitsLt_bf16_f32)
        (constant Cert.KernelIdeal.S1x1024 .f32 0x00000000#32)
      = rCtx aw x2 := by
  funext j
  unfold rCtx
  rw [kernelCtxDims, refCtxDims]
  exact (PlainDot.matmul_zero_apply 1 100 1024 _ _ j).trans (PlainDot.dotGeneral_apply 1 100 1024 HostSchedule.single aw x2 j).symm

/-! ## The pieces of the combined input, read at an index -/

/-- The first 1024 columns of the combine matrix, as the body loads them: at (p, q) the matrix at (p, q). -/
private theorem ld_leftHalf_apply (x6 : Vec Ideal Cert.KernelIdeal.S1024x2048 .f32) (p q : Fin 1024) :
    View.ld x6 Cert.KernelIdeal.Gen.r0_5 (ix2 p q) = x6 (ix2 p ⟨q.val, by omega⟩) :=
  congrArg x6 (Shape.idx_ext₂ (by show 0 + 1 * p.val = p.val; omega) (by show 0 + 1 * q.val = q.val; omega))

/-- The last 1024 columns: at (p, q) the matrix at (p, 1024 + q). -/
private theorem ld_rightHalf_apply (x6 : Vec Ideal Cert.KernelIdeal.S1024x2048 .f32) (p q : Fin 1024) :
    View.ld x6 Cert.KernelIdeal.Gen.r0_6 (ix2 p q) = x6 (ix2 p ⟨1024 + q.val, by omega⟩) :=
  congrArg x6 (Shape.idx_ext₂ (by show 0 + 1 * p.val = p.val; omega) (by show 1024 + 1 * q.val = 1024 + q.val; omega))

/-- A row times the transpose of a 1024×1024 block, accumulated from zero, at column c: the sum over k of the row at k
    times the block at (c, k). -/
private theorem kernelHalf_apply (v : FVec Ideal ⟨2, ![1, 1024]⟩ .bf16) (w : FVec Ideal ⟨2, ![1024, 1024]⟩ .bf16) (r : Fin 1) (c : Fin 1024) :
    matmul (F := Ideal) Cert.KernelIdeal.dot_S1x1024_S1024x1024_S1x1024_1_1_0_0_n_n none v w
        (constant Cert.KernelIdeal.S1x1024 .f32 0x00000000#32) (ix2 r c)
      = ∑ k : Fin 1024, v (ix2 r k) * w (ix2 c k) := by
  rw [kernelHalfDims]
  exact TransposedRhsDot.matmul_zero_apply 1 1024 1024 v w r c

/-- The reference's product of a 2048-long row with a 2048×1024 matrix, at column c. -/
private theorem refDot_apply (a : FVec Ideal ⟨2, ![1, 2048]⟩ .f32) (b : FVec Ideal ⟨2, ![2048, 1024]⟩ .f32) (r : Fin 1) (c : Fin 1024) :
    Host.dotGeneral (F := Ideal) Cert.ReferenceIdeal.dot_S1x2048_S2048x1024_S1x1024_1_0_0_1_n_n none a b (ix2 r c)
      = ∑ k : Fin 2048, a (ix2 r k) * b (ix2 k c) := by
  rw [refCombDims]
  exact PlainDot.dotGeneral_apply 1 2048 1024 HostSchedule.single a b (ix2 r c)

/-- (row ‖ context) at a coordinate below 1024 is the row there. -/
private theorem cat_left_apply (e ctx : Vec Ideal Cert.ReferenceIdeal.S1x1024 .f32) (r : Fin 1) (k : Fin 1024) :
    concatenate Cert.ReferenceIdeal.S1x2048 1 [⟨Cert.ReferenceIdeal.S1x1024, e⟩, ⟨Cert.ReferenceIdeal.S1x1024, ctx⟩]
        Cert.ReferenceIdeal.Gen.concatenates_S1x1024_S1x1024_S1x2048_d1 (ix2 r ⟨k.val, by omega⟩)
      = e (ix2 r k) :=
  concatenate_pair_apply_left (t := Cert.ReferenceIdeal.S1x2048) 1 e ctx
    Cert.ReferenceIdeal.Gen.concatenates_S1x1024_S1x1024_S1x2048_d1 (ix2 r ⟨k.val, by omega⟩) rfl (ix2 r k)
    fun b => match b with | ⟨0, _⟩ => rfl | ⟨1, _⟩ => rfl

/-- (row ‖ context) at a coordinate 1024 + k is the context at k. -/
private theorem cat_right_apply (e ctx : Vec Ideal Cert.ReferenceIdeal.S1x1024 .f32) (r : Fin 1) (k : Fin 1024) :
    concatenate Cert.ReferenceIdeal.S1x2048 1 [⟨Cert.ReferenceIdeal.S1x1024, e⟩, ⟨Cert.ReferenceIdeal.S1x1024, ctx⟩]
        Cert.ReferenceIdeal.Gen.concatenates_S1x1024_S1x1024_S1x2048_d1 (ix2 r ⟨1024 + k.val, by omega⟩)
      = ctx (ix2 r k) :=
  concatenate_pair_apply_right (t := Cert.ReferenceIdeal.S1x2048) 1 e ctx
    Cert.ReferenceIdeal.Gen.concatenates_S1x1024_S1x1024_S1x2048_d1 (ix2 r ⟨1024 + k.val, by omega⟩) rfl rfl (ix2 r k)
    (fun b => match b with | ⟨0, _⟩ => fun _ => rfl | ⟨1, _⟩ => fun h => absurd rfl h)
    (by show k.val + 1024 = 1024 + k.val; omega)

/-- A sum over 2048 coordinates is the sum over the first 1024 plus the sum over the last 1024. -/
private theorem sum_halves (f : Fin 2048 → EReal) :
    ∑ k : Fin 2048, f k = ∑ k : Fin 1024, f ⟨k.val, by omega⟩ + ∑ k : Fin 1024, f ⟨1024 + k.val, by omega⟩ :=
  Fin.sum_univ_add (a := 1024) (b := 1024) f

/-- The kernel's bias row — the bias vector viewed as one row, then cast to its own shape — at column c. -/
private theorem kernelBias_apply (x7 : Vec Ideal Cert.KernelIdeal.S1024 .f32) (r : Fin 1) (c : Fin 1024) :
    shapeCast Cert.KernelIdeal.S1x1024 (shapeCast Cert.KernelIdeal.S1x1024 x7 Cert.KernelIdeal.Gen.shapeCasts_S1024_S1x1024)
        Cert.KernelIdeal.Gen.shapeCasts_S1x1024_S1x1024 (ix2 r c) = x7 (ix1 c) := by
  rw [shapeCast_self]
  exact shapeCast_a_1a_apply x7 _ r c

/-- The reference's bias row — the bias vector broadcast along a new leading axis — at column c. -/
private theorem refBias_apply (x7 : Vec Ideal Cert.ReferenceIdeal.S1024 .f32) (r : Fin 1) (c : Fin 1024) :
    broadcastInDim Cert.ReferenceIdeal.S1x1024 ![1] Cert.ReferenceIdeal.Gen.bcast_S1024_S1x1024_1 x7 (ix2 r c) = x7 (ix1 c) :=
  broadcastInDim_apply _ _ x7 (ix2 r c) (ix1 c) fun a => match a with
    | ⟨0, _⟩ => by show c.val = if (1024 : ℕ) = 1 then 0 else c.val; rw [if_neg (by omega)]

/-- The reference's zero row — the zero scalar broadcast to the row's shape — reads the zero word at every column. -/
private theorem refZero_apply (r : Fin 1) (c : Fin 1024) :
    broadcastInDim Cert.ReferenceIdeal.S1x1024 ![] Cert.ReferenceIdeal.Gen.bcast_S_S1x1024
        (constant (F := Ideal) Cert.ReferenceIdeal.S_ .f32 0x00000000#32) (ix2 r c)
      = FloatOps.ofBits (F := Ideal) .f32 0x00000000#32 :=
  broadcastInDim_apply _ _ _ (ix2 r c) ix0 fun a => a.elim0

/-! ## The combined input -/

/-- The body's combined input over a row, a context, the two halves of the combine matrix as it loads them and the bias
    row, is the reference's combined input of that row and context. -/
private theorem kernelComb_eq (e ctx : Vec Ideal Cert.KernelIdeal.S1x1024 .f32) (x6 : Vec Ideal Cert.KernelIdeal.S1024x2048 .f32)
    (x7 : Vec Ideal Cert.KernelIdeal.S1024 .f32) :
    Cert.KernelIdeal.Gen.k0_pay1 (F := Ideal) (Cert.KernelIdeal.Gen.k0_pay2 e) ctx
        (Cert.KernelIdeal.Gen.k0_pay5 (View.ld x6 Cert.KernelIdeal.Gen.r0_5)) (View.ld x6 Cert.KernelIdeal.Gen.r0_6)
        (shapeCast Cert.KernelIdeal.S1x1024 x7 Cert.KernelIdeal.Gen.shapeCasts_S1024_S1x1024)
      = rComb e ctx x6 x7 := by
  funext j
  obtain ⟨r, c, rfl⟩ : ∃ (r : Fin 1) (c : Fin 1024), j = ix2 r c := ⟨j 0, j 1, eq_ix2 j⟩
  unfold Cert.KernelIdeal.Gen.k0_pay1 Cert.KernelIdeal.Gen.k0_pay2 Cert.KernelIdeal.Gen.k0_pay5 rComb
  dsimp only [maximumf_apply, addf_apply, broadcast_apply]
  rw [kernelHalf_apply, kernelHalf_apply, kernelBias_apply, refDot_apply, refBias_apply, sum_halves, refZero_apply,
    shapeCast_self]
  refine congrArg (fun t => max (t + x7 (ix1 c)) (FloatOps.ofBits (F := Ideal) .f32 0x00000000#32)) ?_
  refine congrArg₂ (· + ·) (Finset.sum_congr rfl fun k _ => ?_) (Finset.sum_congr rfl fun k _ => ?_)
  · -- the row against the first 1024 columns
    rw [cat_left_apply, transpose_ix2_apply]
    exact congrArg (e (ix2 r k) * ·) (ld_leftHalf_apply x6 c k)
  · -- the context against the last 1024 columns
    rw [cat_right_apply, transpose_ix2_apply]
    exact congrArg (ctx (ix2 r k) * ·) (ld_rightHalf_apply x6 c k)

/-- The kernel's stored combined input is the reference's, over the reference's context of the reference's weights. -/
theorem comb_eq (e h : Vec Ideal Cert.KernelIdeal.S1x1024 .f32) (x2 : Vec Ideal Cert.KernelIdeal.S100x1024 .f32) (x4 : Vec Ideal Cert.KernelIdeal.S100x2048 .f32)
    (x5 : Vec Ideal Cert.KernelIdeal.S100 .f32) (x6 : Vec Ideal Cert.KernelIdeal.S1024x2048 .f32) (x7 : Vec Ideal Cert.KernelIdeal.S1024 .f32) :
    Cert.KernelIdeal.Gen.out0_7 (F := Ideal) e h x2 x4 (shapeCast Cert.KernelIdeal.S1x100 x5 Cert.KernelIdeal.Gen.shapeCasts_S100_S1x100) x6 (shapeCast Cert.KernelIdeal.S1x1024 x7 Cert.KernelIdeal.Gen.shapeCasts_S1024_S1x1024)
      = rComb e (rCtx (rAttn e h x4 x5) x2) x6 x7 := by
  have hz : (![0, 0] : Fin 2 → Nat) = fun _ => 0 := funext fun a => match a with | ⟨0, _⟩ => rfl | ⟨1, _⟩ => rfl
  -- the one store covers the buffer, so the buffer holds its payload
  unfold Cert.KernelIdeal.Gen.out0_7
  rw [View.canon_unit_zero hz]
  -- the weights inside the context are the reference's
  unfold Cert.KernelIdeal.Gen.k0_pay4
  rw [attn_pay_eq]
  -- the loads through whole rectangles read the blocks themselves
  rw [View.ld_unit_zero hz, View.ld_unit_zero hz, View.ld_unit_zero hz]
  -- the context is the reference's, and the combined input over it is the reference's
  rw [← kernelCtx_eq (rAttn e h x4 x5) x2]
  exact kernelComb_eq e _ x6 x7

end Cert.Bridge

end
-- ==== Proof.GruBridge.lean ====
/-
  The GRU step, kernel against reference.  Both form the two gate triples v · Wᵀ + b (the kernel contracts both
  operands on their last axis, the reference transposes W first), slice them in three, and combine them with the
  logistic function (one operation in the kernel, 1 / (1 + exp (−a)) in the reference: the same function of the
  extended reals) and the hyperbolic tangent.
-/
import proofs.«146384_j2130303779125_1_alg».proof.Proof.Gen.KernelIdeal.Frame
import proofs.«146384_j2130303779125_1_alg».proof.Proof.Stages
import proofs.«146384_j2130303779125_1_alg».proof.Proof.LibPlainDot
import proofs.«146384_j2130303779125_1_alg».proof.Proof.LibDotTransposedRhs
import proofs.«146384_j2130303779125_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Idealize.ShloMosaic Idealize.ShloMosaic.TcCoe Idealize.ShloMosaic.ValueIdx

/-- The word 0x3F800000 denotes the number one. -/
private theorem ofBits_one_word : Ideal.ofBits .f32 0x3F800000#32 = 1 := IdealRules.sign_bit.ideal_onePat .f32

/-- One gate triple at a column: both sides are Σ_k v(r,k)·W(c,k) + b(c). The kernel contracts both operands on their last
    axis into a zero accumulator (rounding to sixteen bits is the identity on the extended reals) and adds the bias read as a
    row; the reference transposes W, contracts the left operand's last axis with the transpose's first, and adds the bias
    broadcast along the rows. -/
private theorem gate_apply (v : FVec Ideal Cert.KernelIdeal.S1x1024 .f32) (W : FVec Ideal Cert.KernelIdeal.S3072x1024 .f32)
    (b : FVec Ideal Cert.KernelIdeal.S3072 .f32) (hlt : FTy.bits .bf16 < FTy.bits .f32)
    (hc : Cert.KernelIdeal.S3072.ShapeCasts Cert.KernelIdeal.S1x3072) (r : Fin 1) (c : Fin 3072) :
    addf (F := Ideal) (matmul (F := Ideal) Cert.KernelIdeal.dot_S1x1024_S3072x1024_S1x3072_1_1_0_0_n_n none
            (truncf (F := Ideal) .bf16 v hlt) (truncf (F := Ideal) .bf16 W hlt)
            (constant (F := Ideal) Cert.KernelIdeal.S1x3072 .f32 0x00000000#32))
         (shapeCast Cert.KernelIdeal.S1x3072 b hc) (ix2 r c)
      = (rGate (F := Ideal) v W b : FVec Ideal Cert.KernelIdeal.S1x3072 .f32) (ix2 r c) := by
  unfold rGate
  rw [addf_apply, addf_apply]
  congr 1
  · show FloatOps.matmul (DotDims.transposedRhs 1 1024 3072) none _ _ (constant ⟨2, ![1, 3072]⟩ .f32 0x00000000#32) (ix2 r c)
      = FloatOps.dotGeneral (DotDims.plain 1 1024 3072) none .single _ _ (ix2 r c)
    rw [TransposedRhsDot.matmul_zero_apply, PlainDot.dotGeneral_apply]
    refine Finset.sum_congr rfl fun k _ => ?_
    rw [truncf_apply, truncf_apply]
    congr 1
    symm
    refine transpose_apply _ _ _ _ _ fun a => ?_
    match a with
    | ⟨0, _⟩ => rfl
    | ⟨1, _⟩ => rfl
  · refine (shapeCast_apply b hc (ix2 r c) (ix1 c) ?_).trans
      (broadcastInDim_apply _ _ b (ix2 r c) (ix1 c) fun a => ?_).symm
    · rw [Shape.rowMajor_val_one, Shape.rowMajor_val_two]
      show c.val = r.val * 3072 + c.val
      have := r.isLt
      omega
    · match a with
      | ⟨0, _⟩ =>
        show c.val = if (3072 : Nat) = 1 then 0 else c.val
        rw [if_neg (by decide)]

/-- The two gate triples agree as arrays. -/
private theorem gate_eq (v : FVec Ideal Cert.KernelIdeal.S1x1024 .f32) (W : FVec Ideal Cert.KernelIdeal.S3072x1024 .f32)
    (b : FVec Ideal Cert.KernelIdeal.S3072 .f32) (hlt : FTy.bits .bf16 < FTy.bits .f32)
    (hc : Cert.KernelIdeal.S3072.ShapeCasts Cert.KernelIdeal.S1x3072) :
    addf (F := Ideal) (matmul (F := Ideal) Cert.KernelIdeal.dot_S1x1024_S3072x1024_S1x3072_1_1_0_0_n_n none
            (truncf (F := Ideal) .bf16 v hlt) (truncf (F := Ideal) .bf16 W hlt)
            (constant (F := Ideal) Cert.KernelIdeal.S1x3072 .f32 0x00000000#32))
         (shapeCast Cert.KernelIdeal.S1x3072 b hc)
      = (rGate (F := Ideal) v W b : FVec Ideal Cert.KernelIdeal.S1x3072 .f32) :=
  funext fun j => by rw [eq_ix2 j]; exact gate_apply v W b hlt hc _ _

/-- The row of ones, spelt as a splat of the scalar or as a broadcast of the rank-0 constant: the same word everywhere. -/
private theorem ones_eq : (broadcast Cert.KernelIdeal.S1x1024 (Scalar.ofBits (F := Ideal) .f32 0x3F800000#32) : FVec Ideal Cert.KernelIdeal.S1x1024 .f32)
    = (rOne (F := Ideal) : FVec Ideal Cert.KernelIdeal.S1x1024 .f32) := rfl

/-- The logistic function as one operation and as 1 / (1 + exp (−a)): the same function of the extended reals. -/
private theorem logistic_eq (a : FVec Ideal Cert.KernelIdeal.S1x1024 .f32) :
    logistic (F := Ideal) a = (rSig (F := Ideal) a : FVec Ideal Cert.KernelIdeal.S1x1024 .f32) := by
  funext i
  show FloatOps.logistic (a i)
    = FloatOps.hostDivf (Ideal.ofBits .f32 0x3F800000#32)
        (FloatOps.addf (Ideal.ofBits .f32 0x3F800000#32) (FloatOps.hostUnary .exp (FloatOps.hostNegf (a i))))
  rw [ofBits_one_word]
  rfl

/-- The hyperbolic tangent in a kernel body and on the host: one function of the extended reals. -/
private theorem tanh_eq (a : FVec Ideal Cert.KernelIdeal.S1x1024 .f32) : tanh (F := Ideal) a = Host.tanh (F := Ideal) a := rfl

/-- The kernel's stored new hidden state is the reference's GRU step. -/
theorem gru_eq (x h : Vec Ideal Cert.KernelIdeal.S1x1024 .f32) (x8 x9 : Vec Ideal Cert.KernelIdeal.S3072x1024 .f32) (x10 x11 : Vec Ideal Cert.KernelIdeal.S3072 .f32) :
    Cert.KernelIdeal.Gen.out1_6 (F := Ideal) x h x8 x9 (shapeCast Cert.KernelIdeal.S1x3072 x10 Cert.KernelIdeal.Gen.shapeCasts_S3072_S1x3072) (shapeCast Cert.KernelIdeal.S1x3072 x11 Cert.KernelIdeal.Gen.shapeCasts_S3072_S1x3072)
      = rGru x h x8 x9 x10 x11 := by
  have hz : (![0, 0] : Fin 2 → Nat) = fun _ => 0 := funext fun a => by fin_cases a <;> rfl
  -- the one store covers the whole block and every load reads a whole block: the stored value is the payload of the inputs
  unfold Cert.KernelIdeal.Gen.out1_6
  rw [View.canon_unit_zero hz]
  simp only [View.ld_unit_zero (S := Cert.KernelIdeal.S1x1024) hz, View.ld_unit_zero (S := Cert.KernelIdeal.S3072x1024) hz,
    View.ld_unit_zero (S := Cert.KernelIdeal.S1x3072) hz]
  unfold Cert.KernelIdeal.Gen.k1_pay1 rGru rGruOf
  simp only [shapeCast_self]
  -- with the gate triples, the logistic function, the hyperbolic tangent and the row of ones in the reference's spelling,
  -- the two sides apply the same slices and the same pointwise operations to the same arrays
  rw [gate_eq, gate_eq, logistic_eq, logistic_eq, tanh_eq, ones_eq]

end Cert.Bridge

end
-- ==== Proof.ProjBridge.lean ====
/-
  The output logits, kernel against reference.  The kernel pads the weight matrix with 943 zero rows and the bias with
  943 zero columns, computes the padded logits (at column v the inner product of the hidden state with padded row v,
  plus the padded bias at v) and keeps the first 50257 columns.  At a kept column the padded row and bias are the
  originals, so what is kept is the reference's h' · Wᵀ + b.
-/
import proofs.«146384_j2130303779125_1_alg».proof.Proof.Gen.KernelIdeal.Frame
import proofs.«146384_j2130303779125_1_alg».proof.Proof.Stages
import proofs.«146384_j2130303779125_1_alg».proof.Proof.LibPlainDot
import proofs.«146384_j2130303779125_1_alg».proof.Proof.LibDotTransposedRhs
import proofs.«146384_j2130303779125_1_alg».proof.Proof.LibKeepdims
import proofs.«146384_j2130303779125_1_alg».proof.Proof.KProj
import proofs.«146384_j2130303779125_1_alg».proof.Proof.KWalk
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

open scoped BigOperators

namespace Cert.Bridge

open Idealize.ShloMosaic Idealize.ShloMosaic.TcCoe Idealize.ShloMosaic.ValueIdx

/-- A padded weight row below the padding is the original row. -/
private theorem padW_read (x12 : Vec Ideal Cert.KernelIdeal.S50257x1024 .f32) (v : Fin 50257) (k : Fin 1024) (hv : v.val < 51200) :
    Cert.KernelIdeal.Walk.padW x12 (ix2 (⟨v.val, hv⟩ : Fin 51200) k) = x12 (ix2 v k) := by
  unfold Cert.KernelIdeal.Walk.padW
  exact pad_apply_of_inside _ _ _ x12 _ _ _ _ (ix2 v k) (fun a => match a with
    | ⟨0, _⟩ => by show v.val = 0 + v.val * (0 + 1); omega
    | ⟨1, _⟩ => by show k.val = 0 + k.val * (0 + 1); omega)

/-- A padded bias entry below the padding is the original entry. -/
private theorem padB_read (x13 : Vec Ideal Cert.KernelIdeal.S50257 .f32) (p : Fin 1) (v : Fin 50257) (hv : v.val < 51200) :
    Cert.KernelIdeal.Walk.padB x13 (ix2 p (⟨v.val, hv⟩ : Fin 51200)) = x13 (ix1 v) := by
  unfold Cert.KernelIdeal.Walk.padB
  refine (pad_apply_of_inside _ _ _ _ _ _ _ _ (ix2 p v) (fun a => match a with
    | ⟨0, _⟩ => by show p.val = 0 + p.val * (0 + 1); omega
    | ⟨1, _⟩ => by show v.val = 0 + v.val * (0 + 1); omega)).trans ?_
  refine shapeCast_apply _ _ (ix2 p v) (ix1 v) ?_
  rw [Shape.rowMajor_val_one, Shape.rowMajor_val_two]
  show v.val = p.val * 50257 + v.val
  have := p.isLt
  omega

/-- The reference's logit at column v: the inner product of the hidden state with weight row v, plus the bias at v. -/
private theorem rLogits_read (hn : Vec Ideal Cert.KernelIdeal.S1x1024 .f32) (x12 : Vec Ideal Cert.KernelIdeal.S50257x1024 .f32)
    (x13 : Vec Ideal Cert.KernelIdeal.S50257 .f32) (p : Fin 1) (v : Fin 50257) :
    rLogits hn x12 x13 (ix2 p v) = (∑ k : Fin 1024, hn (ix2 (0 : Fin 1) k) * x12 (ix2 v k)) + x13 (ix1 v) := by
  unfold rLogits
  rw [addf_apply]
  have hd : Cert.ReferenceIdeal.dot_S1x1024_S1024x50257_S1x50257_1_0_0_1_n_n = DotDims.plain 1 1024 50257 := rfl
  rw [hd]
  refine congrArg₂ (· + ·) ((PlainDot.dotGeneral_apply 1 1024 50257 _ hn _ (ix2 p v)).trans ?_) ?_
  · refine Finset.sum_congr rfl fun k _ => ?_
    congr 1
    · exact congrArg hn (funext fun a => Fin.ext (by
        match a with
        | ⟨0, _⟩ => show p.val = 0; omega
        | ⟨1, _⟩ => rfl))
    · exact transpose_apply _ _ _ _ (ix2 v k) (fun b => match b with
        | ⟨0, _⟩ => rfl
        | ⟨1, _⟩ => rfl)
  · exact broadcastInDim_apply _ _ _ (ix2 p v) (ix1 v) (fun a => match a with
      | ⟨0, _⟩ => rfl)

/-- The kept columns of the kernel's padded logits are the reference's logits. -/
theorem proj_eq (hn : Vec Ideal Cert.KernelIdeal.S1x1024 .f32) (x12 : Vec Ideal Cert.KernelIdeal.S50257x1024 .f32) (x13 : Vec Ideal Cert.KernelIdeal.S50257 .f32) :
    extractStridedSlice Cert.KernelIdeal.S1x50257 ![0, 0] (Cert.KernelIdeal.Proj.kProj hn (Cert.KernelIdeal.Walk.padW x12) (Cert.KernelIdeal.Walk.padB x13)) Cert.KernelIdeal.Gen.slices_S1x51200_S1x50257_0_0
      = rLogits hn x12 x13 := by
  funext j
  obtain ⟨p, v, rfl⟩ : ∃ (p : Fin 1) (v : Fin 50257), j = ix2 p v := ⟨j 0, j 1, eq_ix2 j⟩
  have hv : v.val < 51200 := by have := v.isLt; omega
  rw [rLogits_read]
  refine (extractStridedSlice_apply _ _ _ (ix2 p v) (ix2 p (⟨v.val, hv⟩ : Fin 51200)) (fun a => match a with
    | ⟨0, _⟩ => by show p.val = 0 + p.val; omega
    | ⟨1, _⟩ => by show v.val = 0 + v.val; omega)).trans ?_
  unfold Cert.KernelIdeal.Proj.kProj
  rw [padB_read]
  congr 1
  refine Finset.sum_congr rfl fun k _ => ?_
  congr 1
  exact padW_read x12 v k _

end Cert.Bridge

end
-- ==== Proof.Spec.lean ====
/-
  The decoder step's three results as functions of the fourteen argument arrays: the composition of the stage
  functions.  Both programs are shown to compute these.
-/
import proofs.«146384_j2130303779125_1_alg».proof.Proof.Stages

noncomputable section

namespace Cert.Bridge

open Idealize.ShloMosaic Idealize.ShloMosaic.TcCoe Cert.ReferenceIdeal Cert.ReferenceIdeal.Gen

variable {F : FTy → Type} [FloatOps F]
variable (x0 : Vec F S1 .i32) (x1 : Vec F S1x1x1024 .f32) (x2 : Vec F S100x1024 .f32) (x3 : Vec F S50257x1024 .f32)
  (x4 : Vec F S100x2048 .f32) (x5 : Vec F S100 .f32) (x6 : Vec F S1024x2048 .f32) (x7 : Vec F S1024 .f32)
  (x8 x9 : Vec F S3072x1024 .f32) (x10 x11 : Vec F S3072 .f32) (x12 : Vec F S50257x1024 .f32) (x13 : Vec F S50257 .f32)

/-- The attention weights as a function of the argument arrays. -/
def sAttn : Vec F S1x100 .f32 := rAttn (rEmb x0 x3) (rHid x1) x4 x5
/-- The new hidden state (a row) as a function of the argument arrays. -/
def sHid : Vec F S1x1024 .f32 :=
  rGru (rComb (rEmb x0 x3) (rCtx (sAttn x0 x1 x3 x4 x5) x2) x6 x7) (rHid x1) x8 x9 x10 x11
/-- The log-probabilities as a function of the argument arrays. -/
def sOut : Vec F S1x50257 .f32 := rLsm (rLogits (sHid x0 x1 x2 x3 x4 x5 x6 x7 x8 x9 x10 x11) x12 x13)

end Cert.Bridge

end
-- ==== Proof.KValue.lean ====
/-
  The idealized kernel's three result buffers as functions of the argument arrays.  The contents at the last segment
  boundary are read back launch by launch: what a launch leaves is its body's store of the arrays it found, the
  arrays it found are host operations of the arguments or what an earlier launch left, and each body's store is the
  matching stage of the decoder step.
-/
import proofs.«146384_j2130303779125_1_alg».proof.Proof.KWalk
import proofs.«146384_j2130303779125_1_alg».proof.Proof.KBlocks
import proofs.«146384_j2130303779125_1_alg».proof.Proof.KProj
import proofs.«146384_j2130303779125_1_alg».proof.Proof.AttnBridge
import proofs.«146384_j2130303779125_1_alg».proof.Proof.CombBridge
import proofs.«146384_j2130303779125_1_alg».proof.Proof.GruBridge
import proofs.«146384_j2130303779125_1_alg».proof.Proof.ProjBridge
import proofs.«146384_j2130303779125_1_alg».proof.Proof.Spec

set_option maxRecDepth 16384

noncomputable section

namespace Cert.KernelIdeal.Values

open Idealize.ShloMosaic Idealize.ShloMosaic.TcCoe Idealize.SL.Sem Cert.KernelIdeal Cert.KernelIdeal.Gen Cert.Bridge
open Cert.KernelIdeal.Walk Cert.KernelIdeal.Blocks Cert.KernelIdeal.Proj

variable (m : (ℓ : Loc nD τ sig) → Buf (Elt Ideal) ℓ) (ρ : Dev nD → PrngReg)

/-- The attention weights the first launch leaves. -/
theorem attn_value (c : Dev nD) : W11 m ρ c (Proc.devRef .tc main_v12_1)
    = sAttn (m ((c : Thread nD τ).loc main_arg0)) (m ((c : Thread nD τ).loc main_arg1)) (m ((c : Thread nD τ).loc main_arg3))
        (m ((c : Thread nD τ).loc main_arg4)) (m ((c : Thread nD τ).loc main_arg5)) := by
  rw [W11_v12_1, arr0_8, V1_v6, V1_v7, V1_arg2, V1_arg4, V1_v8, V1_arg6, V1_v9]
  exact attn_eq _ _ _ _ _ _ _

/-- The combined input the first launch leaves. -/
theorem comb_value (c : Dev nD) : (dat0 (V1 m ρ) c).arrAt 7 cfg0.N
    = rComb (rEmb (m ((c : Thread nD τ).loc main_arg0)) (m ((c : Thread nD τ).loc main_arg3)))
        (rCtx (sAttn (m ((c : Thread nD τ).loc main_arg0)) (m ((c : Thread nD τ).loc main_arg1)) (m ((c : Thread nD τ).loc main_arg3))
          (m ((c : Thread nD τ).loc main_arg4)) (m ((c : Thread nD τ).loc main_arg5))) (m ((c : Thread nD τ).loc main_arg2)))
        (m ((c : Thread nD τ).loc main_arg6)) (m ((c : Thread nD τ).loc main_arg7)) := by
  rw [arr0_7, V1_v6, V1_v7, V1_arg2, V1_arg4, V1_v8, V1_arg6, V1_v9]
  exact comb_eq _ _ _ _ _ _ _

/-- The new hidden state the second launch leaves. -/
theorem hid_value (c : Dev nD) : (dat1 (V2 m ρ) c).arrAt 6 cfg1.N
    = sHid (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  rw [arr1_6, V2_v12_0, comb_value, V2_v7, V1_v7, V2_arg8, V2_arg9, V2_v10, V1_v10, V2_v11, V1_v11]
  exact gru_eq _ _ _ _ _ _

/-- The new hidden state with its leading unit axis, as returned. -/
theorem hid3_value (c : Dev nD) : W11 m ρ c (Proc.devRef .tc main_v20)
    = rHid3 (sHid (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))) := by
  rw [W11_v20, hid_value]

/-- The log-probabilities, as returned. -/
theorem out_value (c : Dev nD) : W11 m ρ c (Proc.devRef .tc main_v19)
    = sOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  rw [W11_v19, arr2_3, V7_v13, hid_value, V7_v14, V7_v16, proj_eq]
  rfl

end Cert.KernelIdeal.Values

end
-- ==== Proof.RefRunStages.lean ====
/-
  The reference's 99 host operations in seven stages: the embedding row and the hidden row; the attention weights;
  the context and the combined input; the two gate triples; the GRU update; the logits; the log-softmax and the
  returned hidden state.  Each stage's results are read as the stage functions of what the stage finds, and the run
  is composed from them: every weakly fair execution ends with the three results at the decoder step's functions of
  the argument arrays, the arguments unchanged.
-/
import proofs.«146384_j2130303779125_1_alg».proof.Proof.Gen.ReferenceIdeal
import Idealize.ShloMosaic.Lib.StableHlo.Run
import proofs.«146384_j2130303779125_1_alg».proof.Proof.Spec

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

/-! ## The seven stages' operations -/

/-- The embedding row and the previous hidden state as a row. -/
abbrev opsEmb : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_arg1 main_v7 rfl shapeCasts_S1x1x1024_S1x1024 ]
/-- Each touches TensorCore references only. -/
theorem opsEmb_sub : (opsEmb : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub ..⟩
/-- Each determines its results. -/
theorem opsEmb_fresh : (opsEmb : List (HloOp τ sig (Elt F))).Forall fun op => op.fresh = ∅ := by
  simp only [opsEmb, List.Forall]; repeat' constructor
/-- The references these operations write. -/
abbrev wEmb : List (Ref sig .tc) := [main_c, main_v0, main_v1, main_c_0, main_v2, main_v3, main_v4, main_v5, main_v6, main_v7]
theorem opsEmb_writes : (opsEmb : List (HloOp τ sig (Elt F))).Forall fun op => op.writes ⊆ ((wEmb).map (Proc.devRef (τ := τ) .tc)).toFinset := by
  simp only [opsEmb, List.Forall, nullary_writes, unary_writes, binary_writes, ternary_writes, reshape_writes, Finset.singleton_subset_iff, List.mem_toFinset]
  repeat' apply And.intro
  all_goals exact List.mem_map_of_mem (by decide)
/-- A buffer these operations do not write keeps its contents. -/
theorem keepEmb (V : Valuation τ sig (Elt F)) (r : Ref sig .tc) (h : r ∉ wEmb) :
    after opsEmb V (Proc.devRef .tc r) = V (Proc.devRef .tc r) := after_of_writes_sub opsEmb V opsEmb_writes h

/-- The attention weights. -/
abbrev opsAttn : List (HloOp τ sig (Elt F)) :=
  [ binary main_v6 main_v7 main_v8 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v9 ((transpose S2048x100 [1, 0] · transposes_S100x2048_S2048x100_1_0) : (⟨S100x2048, .f32⟩ : BufTy).Contents (Elt F) → (⟨S2048x100, .f32⟩ : BufTy).Contents (Elt F)),
    binary main_v8 main_v9 main_v10 ((fun l r => Host.dotGeneral dot_S1x2048_S2048x100_S1x100_1_0_0_1_n_n none l r) : (⟨S1x2048, .f32⟩ : BufTy).Contents (Elt F) → (⟨S2048x100, .f32⟩ : BufTy).Contents (Elt F) → (⟨S1x100, .f32⟩ : BufTy).Contents (Elt F)),
    unary main_arg5 main_v11 (broadcastInDim S1x100 ![1] bcast_S100_S1x100_1 : (⟨S100, .f32⟩ : BufTy).Contents (Elt F) → (⟨S1x100, .f32⟩ : BufTy).Contents (Elt F)),
    binary main_v10 main_v11 main_v12 (addf : (⟨S1x100, .f32⟩ : BufTy).Contents (Elt F) → (⟨S1x100, .f32⟩ : BufTy).Contents (Elt F) → (⟨S1x100, .f32⟩ : BufTy).Contents (Elt F)),
    nullary main_cst (constant S_ .f32 0xFF800000#32),
    binary main_v12 main_cst main_v13 ((fun x v => Host.reduce FloatOps.maximumf x v reducesTo_S1x100_S1_d1 h_S_) : (⟨S1x100, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v14 (broadcastInDim S1 ![] bcast_S_S1 : (⟨S_, .f32⟩ : BufTy).Contents (Elt F) → (⟨S1, .f32⟩ : BufTy).Contents (Elt F)),
    binary main_v14 main_v13 main_v15 (maximumf : (⟨S1, .f32⟩ : BufTy).Contents (Elt F) → (⟨S1, .f32⟩ : BufTy).Contents (Elt F) → (⟨S1, .f32⟩ : BufTy).Contents (Elt F)),
    unary main_v15 main_v16 (broadcastInDim S1x1 ![0] bcast_S1_S1x1_0 : (⟨S1, .f32⟩ : BufTy).Contents (Elt F) → (⟨S1x1, .f32⟩ : BufTy).Contents (Elt F)),
    unary main_v16 main_v17 (broadcastInDim S1x100 ![0, 1] bcast_S1x1_S1x100_0_1 : (⟨S1x1, .f32⟩ : BufTy).Contents (Elt F) → (⟨S1x100, .f32⟩ : BufTy).Contents (Elt F)),
    binary main_v12 main_v17 main_v18 (subf : (⟨S1x100, .f32⟩ : BufTy).Contents (Elt F) → (⟨S1x100, .f32⟩ : BufTy).Contents (Elt F) → (⟨S1x100, .f32⟩ : BufTy).Contents (Elt F)),
    unary main_v18 main_v19 (Host.exp : (⟨S1x100, .f32⟩ : BufTy).Contents (Elt F) → (⟨S1x100, .f32⟩ : BufTy).Contents (Elt F)),
    nullary main_cst_2 (constant S_ .f32 0x00000000#32),
    binary main_v19 main_cst_2 main_v20 ((fun x v => Host.reduceAdd x v reducesTo_S1x100_S1_d1 h_S_) : (⟨S1x100, .f32⟩ : BufTy).Contents (Elt F) → (⟨S_, .f32⟩ : BufTy).Contents (Elt F) → (⟨S1, .f32⟩ : BufTy).Contents (Elt F)),
    unary main_v20 main_v21 (broadcastInDim S1x1 ![0] bcast_S1_S1x1_0 : (⟨S1, .f32⟩ : BufTy).Contents (Elt F) → (⟨S1x1, .f32⟩ : BufTy).Contents (Elt F)),
    unary main_v21 main_v22 (broadcastInDim S1x100 ![0, 1] bcast_S1x1_S1x100_0_1 : (⟨S1x1, .f32⟩ : BufTy).Contents (Elt F) → (⟨S1x100, .f32⟩ : BufTy).Contents (Elt F)),
    binary main_v19 main_v22 main_v23 (Host.divf : (⟨S1x100, .f32⟩ : BufTy).Contents (Elt F) → (⟨S1x100, .f32⟩ : BufTy).Contents (Elt F) → (⟨S1x100, .f32⟩ : BufTy).Contents (Elt F)) ]
/-- Each touches TensorCore references only. -/
theorem opsAttn_sub : (opsAttn : List (HloOp τ sig (Elt F))).Forall fun op => op.bufs ⊆ tcRefs τ sig :=
  ⟨binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
/-- Each determines its results. -/
theorem opsAttn_fresh : (opsAttn : List (HloOp τ sig (Elt F))).Forall fun op => op.fresh = ∅ := by
  simp only [opsAttn, List.Forall]; repeat' constructor
/-- The references these operations write. -/
abbrev wAttn : List (Ref sig .tc) := [main_v8, main_v9, main_v10, main_v11, main_v12, main_cst, main_v13, main_cst_1, main_v14, main_v15, main_v16, main_v17, main_v18, main_v19, main_cst_2, main_v20, main_v21, main_v22, main_v23]
theorem opsAttn_writes : (opsAttn : List (HloOp τ sig (Elt F))).Forall fun op => op.writes ⊆ ((wAttn).map (Proc.devRef (τ := τ) .tc)).toFinset := by
  simp only [opsAttn, List.Forall, nullary_writes, unary_writes, binary_writes, ternary_writes, reshape_writes, Finset.singleton_subset_iff, List.mem_toFinset]
  repeat' apply And.intro
  all_goals exact List.mem_map_of_mem (by decide)
/-- A buffer these operations do not write keeps its contents. -/
theorem keepAttn (V : Valuation τ sig (Elt F)) (r : Ref sig .tc) (h : r ∉ wAttn) :
    after opsAttn V (Proc.devRef .tc r) = V (Proc.devRef .tc r) := after_of_writes_sub opsAttn V opsAttn_writes h

/-- The context and the combined input. -/
abbrev opsComb : List (HloOp τ sig (Elt F)) :=
  [ binary main_v23 main_arg2 main_v24 ((fun l r => Host.dotGeneral dot_S1x100_S100x1024_S1x1024_1_0_0_1_n_n none l r) : (⟨S1x100, .f32⟩ : BufTy).Contents (Elt F) → (⟨S100x1024, .f32⟩ : BufTy).Contents (Elt F) → (⟨S1x1024, .f32⟩ : BufTy).Contents (Elt F)),
    binary main_v6 main_v24 main_v25 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v26 ((transpose S2048x1024 [1, 0] · transposes_S1024x2048_S2048x1024_1_0) : (⟨S1024x2048, .f32⟩ : BufTy).Contents (Elt F) → (⟨S2048x1024, .f32⟩ : BufTy).Contents (Elt F)),
    binary main_v25 main_v26 main_v27 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v28 (broadcastInDim S1x1024 ![1] bcast_S1024_S1x1024_1 : (⟨S1024, .f32⟩ : BufTy).Contents (Elt F) → (⟨S1x1024, .f32⟩ : BufTy).Contents (Elt F)),
    binary main_v27 main_v28 main_v29 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v29) (TRef.of (T := ⟨S1x1024, .f32⟩) main_call0_v0) (TRef.of (T := ⟨S1x1024, .f32⟩) main_v30) maximumf ]
/-- Each touches TensorCore references only. -/
theorem opsComb_sub : (opsComb : List (HloOp τ sig (Elt F))).Forall fun op => op.bufs ⊆ tcRefs τ sig :=
  ⟨binary_bufs_sub .., binary_bufs_sub .., unary_bufs_sub .., binary_bufs_sub .., unary_bufs_sub .., binary_bufs_sub .., nullary_bufs_sub .., unary_bufs_sub .., binary_bufs_sub ..⟩
/-- Each determines its results. -/
theorem opsComb_fresh : (opsComb : List (HloOp τ sig (Elt F))).Forall fun op => op.fresh = ∅ := by
  simp only [opsComb, List.Forall]; repeat' constructor
/-- The references these operations write. -/
abbrev wComb : List (Ref sig .tc) := [main_v24, main_v25, main_v26, main_v27, main_v28, main_v29, main_call0_cst, main_call0_v0, main_v30]
theorem opsComb_writes : (opsComb : List (HloOp τ sig (Elt F))).Forall fun op => op.writes ⊆ ((wComb).map (Proc.devRef (τ := τ) .tc)).toFinset := by
  simp only [opsComb, List.Forall, nullary_writes, unary_writes, binary_writes, ternary_writes, reshape_writes, Finset.singleton_subset_iff, List.mem_toFinset]
  repeat' apply And.intro
  all_goals exact List.mem_map_of_mem (by decide)
/-- A buffer these operations do not write keeps its contents. -/
theorem keepComb (V : Valuation τ sig (Elt F)) (r : Ref sig .tc) (h : r ∉ wComb) :
    after opsComb V (Proc.devRef .tc r) = V (Proc.devRef .tc r) := after_of_writes_sub opsComb V opsComb_writes h

/-- The two gate pre-activation triples. -/
abbrev opsGates : List (HloOp τ sig (Elt F)) :=
  [ unary main_arg8 main_v31 ((transpose S1024x3072 [1, 0] · transposes_S3072x1024_S1024x3072_1_0) : (⟨S3072x1024, .f32⟩ : BufTy).Contents (Elt F) → (⟨S1024x3072, .f32⟩ : BufTy).Contents (Elt F)),
    binary main_v30 main_v31 main_v32 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v33 (broadcastInDim S1x3072 ![1] bcast_S3072_S1x3072_1 : (⟨S3072, .f32⟩ : BufTy).Contents (Elt F) → (⟨S1x3072, .f32⟩ : BufTy).Contents (Elt F)),
    binary main_v32 main_v33 main_v34 (addf : (⟨S1x3072, .f32⟩ : BufTy).Contents (Elt F) → (⟨S1x3072, .f32⟩ : BufTy).Contents (Elt F) → (⟨S1x3072, .f32⟩ : BufTy).Contents (Elt F)),
    unary main_arg9 main_v35 ((transpose S1024x3072 [1, 0] · transposes_S3072x1024_S1024x3072_1_0) : (⟨S3072x1024, .f32⟩ : BufTy).Contents (Elt F) → (⟨S1024x3072, .f32⟩ : BufTy).Contents (Elt F)),
    binary main_v7 main_v35 main_v36 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v37 (broadcastInDim S1x3072 ![1] bcast_S3072_S1x3072_1 : (⟨S3072, .f32⟩ : BufTy).Contents (Elt F) → (⟨S1x3072, .f32⟩ : BufTy).Contents (Elt F)),
    binary main_v36 main_v37 main_v38 (addf : (⟨S1x3072, .f32⟩ : BufTy).Contents (Elt F) → (⟨S1x3072, .f32⟩ : BufTy).Contents (Elt F) → (⟨S1x3072, .f32⟩ : BufTy).Contents (Elt F)) ]
/-- Each touches TensorCore references only. -/
theorem opsGates_sub : (opsGates : List (HloOp τ sig (Elt F))).Forall fun op => op.bufs ⊆ tcRefs τ sig :=
  ⟨unary_bufs_sub .., binary_bufs_sub .., unary_bufs_sub .., binary_bufs_sub .., unary_bufs_sub .., binary_bufs_sub .., unary_bufs_sub .., binary_bufs_sub ..⟩
/-- Each determines its results. -/
theorem opsGates_fresh : (opsGates : List (HloOp τ sig (Elt F))).Forall fun op => op.fresh = ∅ := by
  simp only [opsGates, List.Forall]; repeat' constructor
/-- The references these operations write. -/
abbrev wGates : List (Ref sig .tc) := [main_v31, main_v32, main_v33, main_v34, main_v35, main_v36, main_v37, main_v38]
theorem opsGates_writes : (opsGates : List (HloOp τ sig (Elt F))).Forall fun op => op.writes ⊆ ((wGates).map (Proc.devRef (τ := τ) .tc)).toFinset := by
  simp only [opsGates, List.Forall, nullary_writes, unary_writes, binary_writes, ternary_writes, reshape_writes, Finset.singleton_subset_iff, List.mem_toFinset]
  repeat' apply And.intro
  all_goals exact List.mem_map_of_mem (by decide)
/-- A buffer these operations do not write keeps its contents. -/
theorem keepGates (V : Valuation τ sig (Elt F)) (r : Ref sig .tc) (h : r ∉ wGates) :
    after opsGates V (Proc.devRef .tc r) = V (Proc.devRef .tc r) := after_of_writes_sub opsGates V opsGates_writes h

/-- The GRU update. -/
abbrev opsUpdate : List (HloOp τ sig (Elt F)) :=
  [ unary main_v34 main_v39 ((extractStridedSlice S1x1024 ![0, 0] · slices_S1x3072_S1x1024_0_0) : (⟨S1x3072, .f32⟩ : BufTy).Contents (Elt F) → (⟨S1x1024, .f32⟩ : BufTy).Contents (Elt F)),
    unary main_v34 main_v40 ((extractStridedSlice S1x1024 ![0, 1024] · slices_S1x3072_S1x1024_0_1024) : (⟨S1x3072, .f32⟩ : BufTy).Contents (Elt F) → (⟨S1x1024, .f32⟩ : BufTy).Contents (Elt F)),
    unary main_v34 main_v41 ((extractStridedSlice S1x1024 ![0, 2048] · slices_S1x3072_S1x1024_0_2048) : (⟨S1x3072, .f32⟩ : BufTy).Contents (Elt F) → (⟨S1x1024, .f32⟩ : BufTy).Contents (Elt F)),
    unary main_v38 main_v42 ((extractStridedSlice S1x1024 ![0, 0] · slices_S1x3072_S1x1024_0_0) : (⟨S1x3072, .f32⟩ : BufTy).Contents (Elt F) → (⟨S1x1024, .f32⟩ : BufTy).Contents (Elt F)),
    unary main_v38 main_v43 ((extractStridedSlice S1x1024 ![0, 1024] · slices_S1x3072_S1x1024_0_1024) : (⟨S1x3072, .f32⟩ : BufTy).Contents (Elt F) → (⟨S1x1024, .f32⟩ : BufTy).Contents (Elt F)),
    unary main_v38 main_v44 ((extractStridedSlice S1x1024 ![0, 2048] · slices_S1x3072_S1x1024_0_2048) : (⟨S1x3072, .f32⟩ : BufTy).Contents (Elt F) → (⟨S1x1024, .f32⟩ : BufTy).Contents (Elt F)),
    binary main_v39 main_v42 main_v45 (addf : (⟨S1x1024, .f32⟩ : BufTy).Contents (Elt F) → (⟨S1x1024, .f32⟩ : BufTy).Contents (Elt F) → (⟨S1x1024, .f32⟩ : BufTy).Contents (Elt F)),
    unary main_v45 main_v46 (Host.negf : (⟨S1x1024, .f32⟩ : BufTy).Contents (Elt F) → (⟨S1x1024, .f32⟩ : BufTy).Contents (Elt F)),
    unary main_v46 main_v47 (Host.exp : (⟨S1x1024, .f32⟩ : BufTy).Contents (Elt F) → (⟨S1x1024, .f32⟩ : BufTy).Contents (Elt F)),
    nullary main_cst_3 (constant S_ .f32 0x3F800000#32),
    unary main_cst_3 main_v48 (broadcastInDim S1x1024 ![] bcast_S_S1x1024 : (⟨S_, .f32⟩ : BufTy).Contents (Elt F) → (⟨S1x1024, .f32⟩ : BufTy).Contents (Elt F)),
    binary main_v48 main_v47 main_v49 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v50 (broadcastInDim S1x1024 ![] bcast_S_S1x1024 : (⟨S_, .f32⟩ : BufTy).Contents (Elt F) → (⟨S1x1024, .f32⟩ : BufTy).Contents (Elt F)),
    binary main_v50 main_v49 main_v51 (Host.divf : (⟨S1x1024, .f32⟩ : BufTy).Contents (Elt F) → (⟨S1x1024, .f32⟩ : BufTy).Contents (Elt F) → (⟨S1x1024, .f32⟩ : BufTy).Contents (Elt F)),
    binary main_v40 main_v43 main_v52 (addf : (⟨S1x1024, .f32⟩ : BufTy).Contents (Elt F) → (⟨S1x1024, .f32⟩ : BufTy).Contents (Elt F) → (⟨S1x1024, .f32⟩ : BufTy).Contents (Elt F)),
    unary main_v52 main_v53 (Host.negf : (⟨S1x1024, .f32⟩ : BufTy).Contents (Elt F) → (⟨S1x1024, .f32⟩ : BufTy).Contents (Elt F)),
    unary main_v53 main_v54 (Host.exp : (⟨S1x1024, .f32⟩ : BufTy).Contents (Elt F) → (⟨S1x1024, .f32⟩ : BufTy).Contents (Elt F)),
    nullary main_cst_5 (constant S_ .f32 0x3F800000#32),
    unary main_cst_5 main_v55 (broadcastInDim S1x1024 ![] bcast_S_S1x1024 : (⟨S_, .f32⟩ : BufTy).Contents (Elt F) → (⟨S1x1024, .f32⟩ : BufTy).Contents (Elt F)),
    binary main_v55 main_v54 main_v56 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v57 (broadcastInDim S1x1024 ![] bcast_S_S1x1024 : (⟨S_, .f32⟩ : BufTy).Contents (Elt F) → (⟨S1x1024, .f32⟩ : BufTy).Contents (Elt F)),
    binary main_v57 main_v56 main_v58 (Host.divf : (⟨S1x1024, .f32⟩ : BufTy).Contents (Elt F) → (⟨S1x1024, .f32⟩ : BufTy).Contents (Elt F) → (⟨S1x1024, .f32⟩ : BufTy).Contents (Elt F)),
    binary main_v51 main_v44 main_v59 (mulf : (⟨S1x1024, .f32⟩ : BufTy).Contents (Elt F) → (⟨S1x1024, .f32⟩ : BufTy).Contents (Elt F) → (⟨S1x1024, .f32⟩ : BufTy).Contents (Elt F)),
    binary main_v41 main_v59 main_v60 (addf : (⟨S1x1024, .f32⟩ : BufTy).Contents (Elt F) → (⟨S1x1024, .f32⟩ : BufTy).Contents (Elt F) → (⟨S1x1024, .f32⟩ : BufTy).Contents (Elt F)),
    unary main_v60 main_v61 (Host.tanh : (⟨S1x1024, .f32⟩ : BufTy).Contents (Elt F) → (⟨S1x1024, .f32⟩ : BufTy).Contents (Elt F)),
    nullary main_cst_7 (constant S_ .f32 0x3F800000#32),
    unary main_cst_7 main_v62 (broadcastInDim S1x1024 ![] bcast_S_S1x1024 : (⟨S_, .f32⟩ : BufTy).Contents (Elt F) → (⟨S1x1024, .f32⟩ : BufTy).Contents (Elt F)),
    binary main_v62 main_v58 main_v63 (subf : (⟨S1x1024, .f32⟩ : BufTy).Contents (Elt F) → (⟨S1x1024, .f32⟩ : BufTy).Contents (Elt F) → (⟨S1x1024, .f32⟩ : BufTy).Contents (Elt F)),
    binary main_v63 main_v61 main_v64 (mulf : (⟨S1x1024, .f32⟩ : BufTy).Contents (Elt F) → (⟨S1x1024, .f32⟩ : BufTy).Contents (Elt F) → (⟨S1x1024, .f32⟩ : BufTy).Contents (Elt F)),
    binary main_v58 main_v7 main_v65 (mulf : (⟨S1x1024, .f32⟩ : BufTy).Contents (Elt F) → (⟨S1x1024, .f32⟩ : BufTy).Contents (Elt F) → (⟨S1x1024, .f32⟩ : BufTy).Contents (Elt F)),
    binary main_v64 main_v65 main_v66 (addf : (⟨S1x1024, .f32⟩ : BufTy).Contents (Elt F) → (⟨S1x1024, .f32⟩ : BufTy).Contents (Elt F) → (⟨S1x1024, .f32⟩ : BufTy).Contents (Elt F)) ]
/-- Each touches TensorCore references only. -/
theorem opsUpdate_sub : (opsUpdate : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
/-- Each determines its results. -/
theorem opsUpdate_fresh : (opsUpdate : List (HloOp τ sig (Elt F))).Forall fun op => op.fresh = ∅ := by
  simp only [opsUpdate, List.Forall]; repeat' constructor
/-- The references these operations write. -/
abbrev wUpdate : List (Ref sig .tc) := [main_v39, main_v40, main_v41, main_v42, main_v43, main_v44, main_v45, main_v46, main_v47, main_cst_3, main_v48, main_v49, main_cst_4, main_v50, main_v51, main_v52, main_v53, main_v54, main_cst_5, main_v55, main_v56, main_cst_6, main_v57, main_v58, main_v59, main_v60, main_v61, main_cst_7, main_v62, main_v63, main_v64, main_v65, main_v66]
theorem opsUpdate_writes : (opsUpdate : List (HloOp τ sig (Elt F))).Forall fun op => op.writes ⊆ ((wUpdate).map (Proc.devRef (τ := τ) .tc)).toFinset := by
  simp only [opsUpdate, List.Forall, nullary_writes, unary_writes, binary_writes, ternary_writes, reshape_writes, Finset.singleton_subset_iff, List.mem_toFinset]
  repeat' apply And.intro
  all_goals exact List.mem_map_of_mem (by decide)
/-- A buffer these operations do not write keeps its contents. -/
theorem keepUpdate (V : Valuation τ sig (Elt F)) (r : Ref sig .tc) (h : r ∉ wUpdate) :
    after opsUpdate V (Proc.devRef .tc r) = V (Proc.devRef .tc r) := after_of_writes_sub opsUpdate V opsUpdate_writes h

/-- The output logits. -/
abbrev opsLogits : List (HloOp τ sig (Elt F)) :=
  [ unary main_arg12 main_v67 ((transpose S1024x50257 [1, 0] · transposes_S50257x1024_S1024x50257_1_0) : (⟨S50257x1024, .f32⟩ : BufTy).Contents (Elt F) → (⟨S1024x50257, .f32⟩ : BufTy).Contents (Elt F)),
    binary main_v66 main_v67 main_v68 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v69 (broadcastInDim S1x50257 ![1] bcast_S50257_S1x50257_1 : (⟨S50257, .f32⟩ : BufTy).Contents (Elt F) → (⟨S1x50257, .f32⟩ : BufTy).Contents (Elt F)),
    binary main_v68 main_v69 main_v70 (addf : (⟨S1x50257, .f32⟩ : BufTy).Contents (Elt F) → (⟨S1x50257, .f32⟩ : BufTy).Contents (Elt F) → (⟨S1x50257, .f32⟩ : BufTy).Contents (Elt F)) ]
/-- Each touches TensorCore references only. -/
theorem opsLogits_sub : (opsLogits : List (HloOp τ sig (Elt F))).Forall fun op => op.bufs ⊆ tcRefs τ sig :=
  ⟨unary_bufs_sub .., binary_bufs_sub .., unary_bufs_sub .., binary_bufs_sub ..⟩
/-- Each determines its results. -/
theorem opsLogits_fresh : (opsLogits : List (HloOp τ sig (Elt F))).Forall fun op => op.fresh = ∅ := by
  simp only [opsLogits, List.Forall]; repeat' constructor
/-- The references these operations write. -/
abbrev wLogits : List (Ref sig .tc) := [main_v67, main_v68, main_v69, main_v70]
theorem opsLogits_writes : (opsLogits : List (HloOp τ sig (Elt F))).Forall fun op => op.writes ⊆ ((wLogits).map (Proc.devRef (τ := τ) .tc)).toFinset := by
  simp only [opsLogits, List.Forall, nullary_writes, unary_writes, binary_writes, ternary_writes, reshape_writes, Finset.singleton_subset_iff, List.mem_toFinset]
  repeat' apply And.intro
  all_goals exact List.mem_map_of_mem (by decide)
/-- A buffer these operations do not write keeps its contents. -/
theorem keepLogits (V : Valuation τ sig (Elt F)) (r : Ref sig .tc) (h : r ∉ wLogits) :
    after opsLogits V (Proc.devRef .tc r) = V (Proc.devRef .tc r) := after_of_writes_sub opsLogits V opsLogits_writes h

/-- The log-softmax and the new hidden state with its leading unit axis. -/
abbrev opsOut : List (HloOp τ sig (Elt F)) :=
  [ TRef.nullary (TRef.of (T := ⟨S_, .f32⟩) main_call1_cst) (constant S_ .f32 0xFF800000#32),
    TRef.binary (TRef.of (T := ⟨S1x50257, .f32⟩) main_v70) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v70) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v71) subf,
    unary main_v66 main_v72 (broadcastInDim S1x1x1024 ![1, 2] bcast_S1x1024_S1x1x1024_1_2 : (⟨S1x1024, .f32⟩ : BufTy).Contents (Elt F) → (⟨S1x1x1024, .f32⟩ : BufTy).Contents (Elt F)) ]
/-- Each touches TensorCore references only. -/
theorem opsOut_sub : (opsOut : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub ..⟩
/-- Each determines its results. -/
theorem opsOut_fresh : (opsOut : List (HloOp τ sig (Elt F))).Forall fun op => op.fresh = ∅ := by
  simp only [opsOut, List.Forall]; repeat' constructor
/-- The references these operations write. -/
abbrev wOut : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v71, main_v72]
theorem opsOut_writes : (opsOut : List (HloOp τ sig (Elt F))).Forall fun op => op.writes ⊆ ((wOut).map (Proc.devRef (τ := τ) .tc)).toFinset := by
  simp only [opsOut, List.Forall, nullary_writes, unary_writes, binary_writes, ternary_writes, reshape_writes, Finset.singleton_subset_iff, List.mem_toFinset]
  repeat' apply And.intro
  all_goals exact List.mem_map_of_mem (by decide)
/-- A buffer these operations do not write keeps its contents. -/
theorem keepOut (V : Valuation τ sig (Elt F)) (r : Ref sig .tc) (h : r ∉ wOut) :
    after opsOut V (Proc.devRef .tc r) = V (Proc.devRef .tc r) := after_of_writes_sub opsOut V opsOut_writes h

/-! ## @main as the seven stages in order -/

/-- @main's 99 operations: the seven stages' operations, in order. -/
abbrev opsMain : List (HloOp τ sig (Elt F)) :=
  opsEmb ++ (opsAttn ++ (opsComb ++ (opsGates ++ (opsUpdate ++ (opsLogits ++ opsOut)))))

set_option maxRecDepth 8192 in
set_option maxHeartbeats 4000000 in
/-- @main is these operations run in order. -/
theorem main_stages (c : Dev nD) : main (F := F) c = seq opsMain := rfl
/-- No buffer and no semaphore of the reference is scoped. -/
theorem scopedRefs_empty : (Finset.univ.filter fun b : Ref sig .tc => b.isScoped) = ∅ := by decide
@[inherit_doc scopedRefs_empty]
theorem scopedSems_empty : (Finset.univ.filter fun sm : SemLoc sig => sm.isScoped .tc) = ∅ := by decide
theorem opsMain_sub : (opsMain : List (HloOp τ sig (Elt F))).Forall fun op => op.bufs ⊆ tcRefs τ sig :=
  List.forall_append.mpr ⟨opsEmb_sub, List.forall_append.mpr ⟨opsAttn_sub, List.forall_append.mpr ⟨opsComb_sub, List.forall_append.mpr ⟨opsGates_sub, List.forall_append.mpr ⟨opsUpdate_sub, List.forall_append.mpr ⟨opsLogits_sub, opsOut_sub⟩⟩⟩⟩⟩⟩
theorem opsMain_fresh : (opsMain : List (HloOp τ sig (Elt F))).Forall fun op => op.fresh = ∅ :=
  List.forall_append.mpr ⟨opsEmb_fresh, List.forall_append.mpr ⟨opsAttn_fresh, List.forall_append.mpr ⟨opsComb_fresh, List.forall_append.mpr ⟨opsGates_fresh, List.forall_append.mpr ⟨opsUpdate_fresh, List.forall_append.mpr ⟨opsLogits_fresh, opsOut_fresh⟩⟩⟩⟩⟩⟩

/-- Transport along an equation between types and back along it is the identity. -/
private theorem cast_cast_self {α β : Type} (h : α = β) (h' : β = α) (v : α) : cast h' (cast h v) = v := by
  cases h; rfl

/-! ## Each stage's results, from any contents before it -/

theorem emb_v6 (V : Valuation τ sig (Elt F)) : after opsEmb V (Proc.devRef .tc main_v6) = rEmb (V (Proc.devRef .tc main_arg0)) (V (Proc.devRef .tc main_arg3)) := by
  after_results
  unfold rEmb
  rfl
theorem emb_v7 (V : Valuation τ sig (Elt F)) : after opsEmb V (Proc.devRef .tc main_v7) = rHid (V (Proc.devRef .tc main_arg1)) := by
  after_results
  unfold rHid
  rfl
set_option maxHeartbeats 2000000 in
theorem attn_v23 (V : Valuation τ sig (Elt F)) :
    after opsAttn V (Proc.devRef .tc main_v23) = rAttn (V (Proc.devRef .tc main_v6)) (V (Proc.devRef .tc main_v7)) (V (Proc.devRef .tc main_arg4)) (V (Proc.devRef .tc main_arg5)) := by
  after_results_simp
  unfold rAttn rSoftmax rSmNum rLogit
  rfl
theorem comb_v30 (V : Valuation τ sig (Elt F)) :
    after opsComb V (Proc.devRef .tc main_v30) = rComb (V (Proc.devRef .tc main_v6)) (rCtx (V (Proc.devRef .tc main_v23)) (V (Proc.devRef .tc main_arg2))) (V (Proc.devRef .tc main_arg6)) (V (Proc.devRef .tc main_arg7)) := by
  after_results
  simp only [TRef.ofBuf, TRef.toBuf, cast_cast_self]
  unfold rComb rCtx
  rfl
theorem gates_v34 (V : Valuation τ sig (Elt F)) :
    after opsGates V (Proc.devRef .tc main_v34) = rGate (V (Proc.devRef .tc main_v30)) (V (Proc.devRef .tc main_arg8)) (V (Proc.devRef .tc main_arg10)) := by
  after_results
  unfold rGate
  rfl
theorem gates_v38 (V : Valuation τ sig (Elt F)) :
    after opsGates V (Proc.devRef .tc main_v38) = rGate (V (Proc.devRef .tc main_v7)) (V (Proc.devRef .tc main_arg9)) (V (Proc.devRef .tc main_arg11)) := by
  after_results
  unfold rGate
  rfl
set_option maxHeartbeats 2000000 in
theorem update_v66 (V : Valuation τ sig (Elt F)) :
    after opsUpdate V (Proc.devRef .tc main_v66) = rGruOf (V (Proc.devRef .tc main_v34)) (V (Proc.devRef .tc main_v38)) (V (Proc.devRef .tc main_v7)) := by
  after_results_simp
  unfold rGruOf rSig rOne
  rfl
theorem logits_v70 (V : Valuation τ sig (Elt F)) :
    after opsLogits V (Proc.devRef .tc main_v70) = rLogits (V (Proc.devRef .tc main_v66)) (V (Proc.devRef .tc main_arg12)) (V (Proc.devRef .tc main_arg13)) := by
  after_results
  unfold rLogits
  rfl
theorem out_v71 (V : Valuation τ sig (Elt F)) : after opsOut V (Proc.devRef .tc main_v71) = rLsm (V (Proc.devRef .tc main_v70)) := by
  after_results
  generalize V (Proc.devRef .tc main_v70) = l
  simp only [TRef.ofBuf, TRef.toBuf, cast_cast_self]
  unfold rLsm rLsmShift
  rfl
theorem out_v72 (V : Valuation τ sig (Elt F)) : after opsOut V (Proc.devRef .tc main_v72) = rHid3 (V (Proc.devRef .tc main_v66)) := by
  after_results
  unfold rHid3
  rfl

/-! ## The run, stage after stage -/

/-- The contents after a line of operations followed by another are those after the second, from those after the first. -/
private theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

section Run

variable (m : (ℓ : Loc nD τ sig) → Buf (Elt F) ℓ) (c : Dev nD)

/-- The buffer contents after each stage, from the launch contents. -/
def aEmb : Valuation τ sig (Elt F) := after opsEmb (launchContents m c)
@[inherit_doc aEmb] def aAttn : Valuation τ sig (Elt F) := after opsAttn (aEmb m c)
@[inherit_doc aEmb] def aComb : Valuation τ sig (Elt F) := after opsComb (aAttn m c)
@[inherit_doc aEmb] def aGates : Valuation τ sig (Elt F) := after opsGates (aComb m c)
@[inherit_doc aEmb] def aUpdate : Valuation τ sig (Elt F) := after opsUpdate (aGates m c)
@[inherit_doc aEmb] def aLogits : Valuation τ sig (Elt F) := after opsLogits (aUpdate m c)
@[inherit_doc aEmb] def aOut : Valuation τ sig (Elt F) := after opsOut (aLogits m c)

/-- After all of @main's operations the contents are those after the last stage. -/
theorem after_ops : after opsMain (launchContents m c) = aOut m c := by
  show after (opsEmb ++ (opsAttn ++ (opsComb ++ (opsGates ++ (opsUpdate ++ (opsLogits ++ opsOut)))))) _ = _
  rw [after_append', after_append', after_append', after_append', after_append', after_append']
  rfl

/-! ### A buffer no stage so far has written holds what it was launched with -/

theorem aEmb_of (r : Ref sig .tc) (h1 : r ∉ wEmb) : aEmb m c (Proc.devRef .tc r) = m ((c.tc : Thread nD τ).loc r) :=
  keepEmb _ r h1
theorem aAttn_of (r : Ref sig .tc) (h1 : r ∉ wEmb) (h2 : r ∉ wAttn) :
    aAttn m c (Proc.devRef .tc r) = m ((c.tc : Thread nD τ).loc r) :=
  (keepAttn _ r h2).trans (aEmb_of m c r h1)
theorem aComb_of (r : Ref sig .tc) (h1 : r ∉ wEmb) (h2 : r ∉ wAttn) (h3 : r ∉ wComb) :
    aComb m c (Proc.devRef .tc r) = m ((c.tc : Thread nD τ).loc r) :=
  (keepComb _ r h3).trans (aAttn_of m c r h1 h2)
theorem aGates_of (r : Ref sig .tc) (h1 : r ∉ wEmb) (h2 : r ∉ wAttn) (h3 : r ∉ wComb) (h4 : r ∉ wGates) :
    aGates m c (Proc.devRef .tc r) = m ((c.tc : Thread nD τ).loc r) :=
  (keepGates _ r h4).trans (aComb_of m c r h1 h2 h3)
theorem aUpdate_of (r : Ref sig .tc) (h1 : r ∉ wEmb) (h2 : r ∉ wAttn) (h3 : r ∉ wComb) (h4 : r ∉ wGates) (h5 : r ∉ wUpdate) :
    aUpdate m c (Proc.devRef .tc r) = m ((c.tc : Thread nD τ).loc r) :=
  (keepUpdate _ r h5).trans (aGates_of m c r h1 h2 h3 h4)
theorem aLogits_of (r : Ref sig .tc) (h1 : r ∉ wEmb) (h2 : r ∉ wAttn) (h3 : r ∉ wComb) (h4 : r ∉ wGates) (h5 : r ∉ wUpdate) (h6 : r ∉ wLogits) :
    aLogits m c (Proc.devRef .tc r) = m ((c.tc : Thread nD τ).loc r) :=
  (keepLogits _ r h6).trans (aUpdate_of m c r h1 h2 h3 h4 h5)
theorem aOut_of (r : Ref sig .tc) (h1 : r ∉ wEmb) (h2 : r ∉ wAttn) (h3 : r ∉ wComb) (h4 : r ∉ wGates) (h5 : r ∉ wUpdate) (h6 : r ∉ wLogits) (h7 : r ∉ wOut) :
    aOut m c (Proc.devRef .tc r) = m ((c.tc : Thread nD τ).loc r) :=
  (keepOut _ r h7).trans (aLogits_of m c r h1 h2 h3 h4 h5 h6)

/-! ### Each stage's results as functions of the argument arrays -/

theorem aEmb_v6 : aEmb m c (Proc.devRef .tc main_v6) = (rEmb (m ((c.tc : Thread nD τ).loc main_arg0)) (m ((c.tc : Thread nD τ).loc main_arg3))) := emb_v6 _
theorem aEmb_v7 : aEmb m c (Proc.devRef .tc main_v7) = (rHid (m ((c.tc : Thread nD τ).loc main_arg1))) := emb_v7 _
theorem aAttn_v23 : aAttn m c (Proc.devRef .tc main_v23) = (sAttn (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) := by
  unfold aAttn
  rw [attn_v23, aEmb_v6, aEmb_v7, aEmb_of m c main_arg4 (by decide), aEmb_of m c main_arg5 (by decide)]
  rfl
theorem aAttn_v6 : aAttn m c (Proc.devRef .tc main_v6) = (rEmb (m ((c.tc : Thread nD τ).loc main_arg0)) (m ((c.tc : Thread nD τ).loc main_arg3))) :=
  (keepAttn _ main_v6 (by decide)).trans (aEmb_v6 m c)
theorem aAttn_v7 : aAttn m c (Proc.devRef .tc main_v7) = (rHid (m ((c.tc : Thread nD τ).loc main_arg1))) :=
  (keepAttn _ main_v7 (by decide)).trans (aEmb_v7 m c)
theorem aComb_v30 : aComb m c (Proc.devRef .tc main_v30) = (rComb (rEmb (m ((c.tc : Thread nD τ).loc main_arg0)) (m ((c.tc : Thread nD τ).loc main_arg3))) (rCtx (sAttn (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg2))) (m ((c.tc : Thread nD τ).loc main_arg6)) (m ((c.tc : Thread nD τ).loc main_arg7))) := by
  unfold aComb
  rw [comb_v30, aAttn_v6, aAttn_v23, aAttn_of m c main_arg2 (by decide) (by decide), aAttn_of m c main_arg6 (by decide) (by decide), aAttn_of m c main_arg7 (by decide) (by decide)]
theorem aComb_v7 : aComb m c (Proc.devRef .tc main_v7) = (rHid (m ((c.tc : Thread nD τ).loc main_arg1))) :=
  (keepComb _ main_v7 (by decide)).trans (aAttn_v7 m c)
theorem aComb_v23 : aComb m c (Proc.devRef .tc main_v23) = (sAttn (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) :=
  (keepComb _ main_v23 (by decide)).trans (aAttn_v23 m c)
theorem aGates_v34 : aGates m c (Proc.devRef .tc main_v34) = rGate (rComb (rEmb (m ((c.tc : Thread nD τ).loc main_arg0)) (m ((c.tc : Thread nD τ).loc main_arg3))) (rCtx (sAttn (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg2))) (m ((c.tc : Thread nD τ).loc main_arg6)) (m ((c.tc : Thread nD τ).loc main_arg7))) (m ((c.tc : Thread nD τ).loc main_arg8)) (m ((c.tc : Thread nD τ).loc main_arg10)) := by
  unfold aGates
  rw [gates_v34, aComb_v30, aComb_of m c main_arg8 (by decide) (by decide) (by decide), aComb_of m c main_arg10 (by decide) (by decide) (by decide)]
theorem aGates_v38 : aGates m c (Proc.devRef .tc main_v38) = rGate (rHid (m ((c.tc : Thread nD τ).loc main_arg1))) (m ((c.tc : Thread nD τ).loc main_arg9)) (m ((c.tc : Thread nD τ).loc main_arg11)) := by
  unfold aGates
  rw [gates_v38, aComb_v7, aComb_of m c main_arg9 (by decide) (by decide) (by decide), aComb_of m c main_arg11 (by decide) (by decide) (by decide)]
theorem aGates_v7 : aGates m c (Proc.devRef .tc main_v7) = (rHid (m ((c.tc : Thread nD τ).loc main_arg1))) :=
  (keepGates _ main_v7 (by decide)).trans (aComb_v7 m c)
theorem aGates_v23 : aGates m c (Proc.devRef .tc main_v23) = (sAttn (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) :=
  (keepGates _ main_v23 (by decide)).trans (aComb_v23 m c)
theorem aUpdate_v66 : aUpdate m c (Proc.devRef .tc main_v66) = (sHid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  unfold aUpdate
  rw [update_v66, aGates_v34, aGates_v38, aGates_v7]
  rfl
theorem aUpdate_v23 : aUpdate m c (Proc.devRef .tc main_v23) = (sAttn (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) :=
  (keepUpdate _ main_v23 (by decide)).trans (aGates_v23 m c)
theorem aLogits_v70 : aLogits m c (Proc.devRef .tc main_v70) = rLogits (sHid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg12)) (m ((c.tc : Thread nD τ).loc main_arg13)) := by
  unfold aLogits
  rw [logits_v70, aUpdate_v66, aUpdate_of m c main_arg12 (by decide) (by decide) (by decide) (by decide) (by decide), aUpdate_of m c main_arg13 (by decide) (by decide) (by decide) (by decide) (by decide)]
theorem aLogits_v66 : aLogits m c (Proc.devRef .tc main_v66) = (sHid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :=
  (keepLogits _ main_v66 (by decide)).trans (aUpdate_v66 m c)
theorem aLogits_v23 : aLogits m c (Proc.devRef .tc main_v23) = (sAttn (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) :=
  (keepLogits _ main_v23 (by decide)).trans (aUpdate_v23 m c)
theorem aOut_v71 : aOut m c (Proc.devRef .tc main_v71) = (sOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := by
  unfold aOut
  rw [out_v71, aLogits_v70]
  rfl
theorem aOut_v72 : aOut m c (Proc.devRef .tc main_v72) = rHid3 (sHid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  unfold aOut
  rw [out_v72, aLogits_v66]
theorem aOut_v23 : aOut m c (Proc.devRef .tc main_v23) = (sAttn (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) :=
  (keepOut _ main_v23 (by decide)).trans (aLogits_v23 m c)

end Run

/-- Every weakly fair execution of the reference terminates with its three results at the decoder step's functions of
    the argument arrays, the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = sOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v72) = rHid3 (sHid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
      ∧ r.2.mem ((c.tc : Thread nD τ).loc main_v23) = sAttn (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun _ h c => ?_)
    (run_seq scopedRefs_empty scopedSems_empty defs main (fun _ => opsMain) main_stages (fun _ => opsMain_sub) m ρ
      (fun _ => List.forall_iff_forall_mem.mp opsMain_fresh))
  have e : ∀ b : Ref sig .tc, _ = aOut m c (Proc.devRef .tc b) := fun b => (h c b).trans (congrFun (after_ops m c) _)
  exact ⟨(e main_v71).trans (aOut_v71 m c), (e main_v72).trans (aOut_v72 m c), (e main_v23).trans (aOut_v23 m c),
    (e main_arg0).trans (aOut_of m c main_arg0 (by decide) (by decide) (by decide) (by decide) (by decide) (by decide) (by decide)),
    (e main_arg1).trans (aOut_of m c main_arg1 (by decide) (by decide) (by decide) (by decide) (by decide) (by decide) (by decide)),
    (e main_arg2).trans (aOut_of m c main_arg2 (by decide) (by decide) (by decide) (by decide) (by decide) (by decide) (by decide)),
    (e main_arg3).trans (aOut_of m c main_arg3 (by decide) (by decide) (by decide) (by decide) (by decide) (by decide) (by decide)),
    (e main_arg4).trans (aOut_of m c main_arg4 (by decide) (by decide) (by decide) (by decide) (by decide) (by decide) (by decide)),
    (e main_arg5).trans (aOut_of m c main_arg5 (by decide) (by decide) (by decide) (by decide) (by decide) (by decide) (by decide)),
    (e main_arg6).trans (aOut_of m c main_arg6 (by decide) (by decide) (by decide) (by decide) (by decide) (by decide) (by decide)),
    (e main_arg7).trans (aOut_of m c main_arg7 (by decide) (by decide) (by decide) (by decide) (by decide) (by decide) (by decide)),
    (e main_arg8).trans (aOut_of m c main_arg8 (by decide) (by decide) (by decide) (by decide) (by decide) (by decide) (by decide)),
    (e main_arg9).trans (aOut_of m c main_arg9 (by decide) (by decide) (by decide) (by decide) (by decide) (by decide) (by decide)),
    (e main_arg10).trans (aOut_of m c main_arg10 (by decide) (by decide) (by decide) (by decide) (by decide) (by decide) (by decide)),
    (e main_arg11).trans (aOut_of m c main_arg11 (by decide) (by decide) (by decide) (by decide) (by decide) (by decide) (by decide)),
    (e main_arg12).trans (aOut_of m c main_arg12 (by decide) (by decide) (by decide) (by decide) (by decide) (by decide) (by decide)),
    (e main_arg13).trans (aOut_of m c main_arg13 (by decide) (by decide) (by decide) (by decide) (by decide) (by decide) (by decide))⟩

end Cert.Bridge

end
-- ==== Proof.lean ====
/-
  The certificate of one attention-decoder step: an embedding row is gathered, attention weights are a softmax of an
  affine map of (row ‖ hidden state), the context is their product with the encoder outputs, the combined input is
  relu of an affine map of (row ‖ context), the hidden state advances by one GRU step, and the result is the
  log-softmax of an affine map of the new hidden state.

  The kernel does this in three launches among host operations: the first computes the attention weights and the
  combined input, multiplying each half of a concatenation by the matching half of the weight matrix and adding; the
  second is the GRU step; the third computes the logits in 25 column blocks of a zero-padded weight matrix and bias,
  and the host keeps the unpadded columns and takes the log-softmax.  The reference does each affine map as one
  product with the transposed matrix.

  Over the extended reals the two agree stage by stage: a sum over 2048 coordinates is the sum over the first 1024
  plus the sum over the last 1024 (addition there is commutative and associative, so no finiteness is used); a
  product with a transposed matrix is the product contracting both last axes; the logistic function is
  1 / (1 + exp (−a)) by definition; the padded rows and columns are never read at a kept column.  The three frames
  of the two kernels are the generated ones, the reference's is its run with the results dropped (the run is read
  stage by stage from its 99 host operations); the idealization rewrote nothing, so it preserves trivially.
-/
import proofs.«146384_j2130303779125_1_alg».proof.Defs
import proofs.«146384_j2130303779125_1_alg».proof.Proof.Gen.Kernel
import proofs.«146384_j2130303779125_1_alg».proof.Proof.Gen.Kernel.Skeleton
import proofs.«146384_j2130303779125_1_alg».proof.Proof.Gen.Kernel.Launch
import proofs.«146384_j2130303779125_1_alg».proof.Proof.Gen.Kernel.Points
import proofs.«146384_j2130303779125_1_alg».proof.Proof.Gen.Kernel.Frame
import proofs.«146384_j2130303779125_1_alg».proof.Proof.Gen.KernelIdeal
import proofs.«146384_j2130303779125_1_alg».proof.Proof.Gen.KernelIdeal.Skeleton
import proofs.«146384_j2130303779125_1_alg».proof.Proof.Gen.KernelIdeal.Launch
import proofs.«146384_j2130303779125_1_alg».proof.Proof.Gen.KernelIdeal.Points
import proofs.«146384_j2130303779125_1_alg».proof.Proof.Gen.KernelIdeal.Frame
import proofs.«146384_j2130303779125_1_alg».proof.Proof.Gen.ReferenceIdeal
import proofs.«146384_j2130303779125_1_alg».proof.Proof.Gen.Pre_finite_inputs
import proofs.«146384_j2130303779125_1_alg».proof.Proof.KRun
import proofs.«146384_j2130303779125_1_alg».proof.Proof.KValue
import proofs.«146384_j2130303779125_1_alg».proof.Proof.RefRunStages
import Idealize.ShloMosaic.Adequacy
import Idealize.ShloMosaic.Init

set_option maxRecDepth 16384

noncomputable section

namespace Cert.Proof

open Idealize.ShloMosaic Idealize.SL.Sem Cert.Bridge

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the three results dropped. -/
theorem frame_referenceIdeal : Cert.frame_ReferenceIdeal := fun m ρ _ =>
  (θ_run Cert.ReferenceIdeal.defs _ _).mono (fun _ h c => (h c).2.2.2) (ref_run (F := Ideal) m ρ)

set_option maxHeartbeats 4000000 in
/-- From memories that agree on the arguments both idealized programs end with the log-probabilities, the new hidden
    state and the attention weights at the same functions of the argument arrays. -/
theorem algebraic : Cert.algebraic_KernelIdeal_ReferenceIdeal := by
  intro m ρ m' ρ' _ hagree
  refine ⟨fun c => sOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => rHid3 (sHid (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))),
    fun c => sAttn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Values.out_value m ρ c),
        (h c).2.1.trans (Cert.KernelIdeal.Values.hid3_value m ρ c),
        (h c).2.2.1.trans (Cert.KernelIdeal.Values.attn_value m ρ c), (h c).2.2.2⟩)
      (Cert.KernelIdeal.Gen.run_values m ρ)
  · refine (θ_run Cert.ReferenceIdeal.defs _ _).mono (fun r h c => ?_) (ref_run (F := Ideal) m' ρ')
    obtain ⟨e0, e1, e2, e3, e4, e5, e6, e7, e8, e9, e10, e11, e12, e13⟩ := hagree c
    refine ⟨(h c).1.trans ?_, (h c).2.1.trans ?_, (h c).2.2.1.trans ?_, (h c).2.2.2⟩
    · rw [e0, e1, e2, e3, e4, e5, e6, e7, e8, e9, e10, e11, e12, e13]
    · rw [e0, e1, e2, e3, e4, e5, e6, e7, e8, e9, e10, e11]
    · exact congr (congr (congr (congr (congrArg (sAttn (F := Ideal)) e0) e1) e3) e4) e5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
